-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x512x3 : Shape := ⟨3, ![32, 512, 3]⟩
abbrev S32x512 : Shape := ⟨2, ![32, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x512x3 : S_.BroadcastsInDim S32x512x3 (![] : Fin 0 → Fin S32x512x3.rank)
  reducesTo_S32x512x3_S_d0_1_2 : S32x512x3.ReducesTo [0, 1, 2] S_
  bcast_S_S32x512 : S_.BroadcastsInDim S32x512 (![] : Fin 0 → Fin S32x512.rank)
  reducesTo_S32x512_S_d0_1 : S32x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S1024x512 .f32) (main_arg8 : FVec F S512 .f32) (main_arg9 : FVec F S512x1 .f32) (main_arg10 : FVec F S1 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S512 .f32) (main_arg5 : FVec F S512x1 .f32) (main_arg6 : FVec F S1 .f32) (main_arg7 : FVec F S1024x512 .f32) (main_arg8 : FVec F S512 .f32) (main_arg9 : FVec F S512x1 .f32) (main_arg10 : FVec F S1 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x512x1024 .f32) (main_arg1 : FVec F S32x512x3 .f32) (main_arg2 : FVec F S32x512 .f32) (main_arg3 : FVec F S1024x512 .f32) (main_arg4 : FVec F S512 .f32) (main_arg5 : FVec F S512x1 .f32) (main_arg6 : FVec F S1 .f32) (main_arg7 : FVec F S1024x512 .f32) (main_arg8 : FVec F S512 .f32) (main_arg9 : FVec F S512x1 .f32) (main_arg10 : FVec F S1 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x3 .f32 := Host.absf main_arg1
  let main_cst_0 : FVec F S_ .f32 := constant S_ .f32 0x7F800000#32
  let main_v5 : FVec F S32x512x3 .f32 := broadcastInDim S32x512x3 ![] bcast_S_S32x512x3 main_cst_0
  let main_v6 : IVec S32x512x3 1 := cmpf .olt main_v4 main_v5
  let main_c_1 : IVec S_ 1 := constantI S_ 1 1#1
  let main_v7 : IVec S_ 1 := (fun x v => Host.reduce IntOp.andi x v reducesTo_S32x512x3_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S32x512x1024 : Shape := ⟨3, ![32, 512, 1024]⟩
abbrev S32x512x3 : Shape := ⟨3, ![32, 512, 3]⟩
abbrev S32x512 : Shape := ⟨2, ![32, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S32x512x1 : Shape := ⟨3, ![32, 512, 1]⟩
abbrev S32x1x1 : Shape := ⟨3, ![32, 1, 1]⟩
abbrev S1x512x1024 : Shape := ⟨3, ![1, 512, 1024]⟩
abbrev S1x512x1 : Shape := ⟨3, ![1, 512, 1]⟩
abbrev S1x1x1 : Shape := ⟨3, ![1, 1, 1]⟩
abbrev S512x1024 : Shape := ⟨2, ![512, 1024]⟩
abbrev S512x512 : Shape := ⟨2, ![512, 512]⟩
abbrev S1x512 : Shape := ⟨2, ![1, 512]⟩
abbrev S1x1 : Shape := ⟨2, ![1, 1]⟩
abbrev S1x512x3 : Shape := ⟨3, ![1, 512, 3]⟩
abbrev S512x3 : Shape := ⟨2, ![512, 3]⟩
abbrev S32x1 : Shape := ⟨2, ![32, 1]⟩

abbrev nBuf : Space → Nat
  | .hbm => 18
  | .vmem => 24
  | .smem => 0
  | _ => 0

abbrev bufTy : (tb : Table) → Fin (tcTables nBuf tb) → BufTy
  | .hbm, ⟨0, _⟩ => ⟨S32x512x1024, .f32⟩
  | .hbm, ⟨1, _⟩ => ⟨S32x512x3, .f32⟩
  | .hbm, ⟨2, _⟩ => ⟨S32x512, .f32⟩
  | .hbm, ⟨3, _⟩ => ⟨S1024x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S1024x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S32x512x1, .f32⟩
  | .hbm, ⟨12, _⟩ => ⟨S32x1x1, .f32⟩
  | .hbm, ⟨13, _⟩ => ⟨S32x512x1, .f32⟩
  | .hbm, ⟨14, _⟩ => ⟨S32x1x1, .f32⟩
  | .hbm, ⟨15, _⟩ => ⟨S32x1, .f32⟩
  | .hbm, ⟨16, _⟩ => ⟨S32x1, .f32⟩
  | .hbm, ⟨17, _⟩ => ⟨S32x1, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .f32⟩
  | .local _ .vmem, ⟨3, _⟩ => ⟨S1x512x1, .f32⟩
  | .local _ .vmem, ⟨4, _⟩ => ⟨S1024x512, .f32⟩
  | .local _ .vmem, ⟨5, _⟩ => ⟨S512, .f32⟩
  | .local _ .vmem, ⟨6, _⟩ => ⟨S512x1, .f32⟩
  | .local _ .vmem, ⟨7, _⟩ => ⟨S1, .f32⟩
  | .local _ .vmem, ⟨8, _⟩ => ⟨S1024x512, .f32⟩
  | .local _ .vmem, ⟨9, _⟩ => ⟨S512, .f32⟩
  | .local _ .vmem, ⟨10, _⟩ => ⟨S512x1, .f32⟩
  | .local _ .vmem, ⟨11, _⟩ => ⟨S1, .f32⟩
  | .local _ .vmem, ⟨12, _⟩ => ⟨S1x1x1, .f32⟩
  | .local _ .vmem, ⟨13, _⟩ => ⟨S1x1x1, .f32⟩
  | .local _ .vmem, ⟨14, _⟩ => ⟨S1x512x1, .f32⟩
  | .local _ .vmem, ⟨15, _⟩ => ⟨S1x512x1, .f32⟩
  | .local _ .vmem, ⟨16, _⟩ => ⟨S1x512x3, .f32⟩
  | .local _ .vmem, ⟨17, _⟩ => ⟨S1x512x3, .f32⟩
  | .local _ .vmem, ⟨18, _⟩ => ⟨S1x512x1, .f32⟩
  | .local _ .vmem, ⟨19, _⟩ => ⟨S1x512x1, .f32⟩
  | .local _ .vmem, ⟨20, _⟩ => ⟨S1x512x1, .f32⟩
  | .local _ .vmem, ⟨21, _⟩ => ⟨S1x512x1, .f32⟩
  | .local _ .vmem, ⟨22, _⟩ => ⟨S1x1x1, .f32⟩
  | .local _ .vmem, ⟨23, _⟩ => ⟨S1x1x1, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S32x512_S32x512x1_0_1 : S32x512.BroadcastsInDim S32x512x1 (![0, 1] : Fin 2 → Fin S32x512x1.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  reduces_S512x1_S1 : S512x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S512x1_S1x512x1 : S512x1.ShapeCasts S1x512x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  transposes_S512x1_p1_0_S1x512 : S512x1.Transposes [1, 0] S1x512
  broadcasts_S512x1_S512x512 : S512x1.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  shapeCasts_S32x1x1_S32x1 : S32x1x1.ShapeCasts S32x1
  dot_S512x1024_S1024x512_S512x512_1_0_0_1_n_n_wf : DotDims.WF S512x1024 S1024x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x512x1.size a
  hwx0_1 : ∀ i : grid0.Coords, EltTy.bits .f32 = 32 ∨ (Rect.block (s := S32x512x1) S1x512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .f32 = 32 ∨ (Rect.block (s := S1024x512) S1024x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S32x1x1.size a
  hwx0_10 : ∀ i : grid0.Coords, EltTy.bits .f32 = 32 ∨ (Rect.block (s := S32x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1.size a ≤ S32x512x1.size a
  hwx0_11 : ∀ i : grid0.Coords, EltTy.bits .f32 = 32 ∨ (Rect.block (s := S32x512x1) S1x512x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x3.size a ≤ S32x512x3.size a
  hwx1_0 : ∀ i : grid1.Coords, EltTy.bits .f32 = 32 ∨ (Rect.block (s := S32x512x3) S1x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S32x512x1.size a
  hwx1_1 : ∀ i : grid1.Coords, EltTy.bits .f32 = 32 ∨ (Rect.block (s := S32x512x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S32x512x1.size a
  hwx1_2 : ∀ i : grid1.Coords, EltTy.bits .f32 = 32 ∨ (Rect.block (s := S32x512x1) S1x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S32x1x1.size a
  hwx1_3 : ∀ i : grid1.Coords, EltTy.bits .f32 = 32 ∨ (Rect.block (s := S32x1x1) S1x1x1.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_0) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1_1) S1x512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S1x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x1024 : Shape := ⟨3, ![32, 512, 1024]⟩
abbrev S32x512x3 : Shape := ⟨3, ![32, 512, 3]⟩
abbrev S32x512 : Shape := ⟨2, ![32, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S32x512x512 : Shape := ⟨3, ![32, 512, 512]⟩
abbrev S1x1x512 : Shape := ⟨3, ![1, 1, 512]⟩
abbrev S_ : Shape := ⟨0, ![]⟩
abbrev S32x512x1 : Shape := ⟨3, ![32, 512, 1]⟩
abbrev S1x1x1 : Shape := ⟨3, ![1, 1, 1]⟩
abbrev S32x1 : Shape := ⟨2, ![32, 1]⟩
abbrev S32x1x512x3 : Shape := ⟨4, ![32, 1, 512, 3]⟩
abbrev S32x512x1x3 : Shape := ⟨4, ![32, 512, 1, 3]⟩
abbrev S32x512x512x3 : Shape := ⟨4, ![32, 512, 512, 3]⟩
abbrev S512x512 : Shape := ⟨2, ![512, 512]⟩
abbrev S32x1x512 : Shape := ⟨3, ![32, 1, 512]⟩
abbrev S1x512x512 : Shape := ⟨3, ![1, 512, 512]⟩
abbrev S32 : Shape := ⟨1, ![32]⟩

abbrev nBuf : Space → Nat
  | .hbm => 129
  | .vmem => 0
  | .smem => 0
  | _ => 0

abbrev hbmTy0_0 (i : Nat) : BufTy := match i % 128 with
  | 0 => ⟨S32x512x1024, .f32⟩
  | 1 => ⟨S32x512x3, .f32⟩
  | 2 => ⟨S32x512, .f32⟩
  | 3 => ⟨S1024x512, .f32⟩
  | 4 => ⟨S512, .f32⟩
  | 5 => ⟨S512x1, .f32⟩
  | 6 => ⟨S1, .f32⟩
  | 7 => ⟨S1024x512, .f32⟩
  | 8 => ⟨S512, .f32⟩
  | 9 => ⟨S512x1, .f32⟩
  | 10 => ⟨S1, .f32⟩
  | 11 => ⟨S32x512x512, .f32⟩
  | 12 => ⟨S1x1x512, .f32⟩
  | 13 => ⟨S32x512x512, .f32⟩
  | 14 => ⟨S32x512x512, .f32⟩
  | 15 => ⟨S_, .f32⟩
  | 16 => ⟨S32x512x512, .f32⟩
  | 17 => ⟨S32x512x512, .f32⟩
  | 18 => ⟨S32x512x512, .f32⟩
  | 19 => ⟨S32x512x512, .f32⟩
  | 20 => ⟨S32x512x512, .i1⟩
  | 21 => ⟨S32x512x512, .f32⟩
  | 22 => ⟨S32x512x512, .f32⟩
  | 23 => ⟨S32x512x512, .f32⟩
  | 24 => ⟨S32x512x512, .f32⟩
  | 25 => ⟨S32x512x512, .f32⟩
  | 26 => ⟨S32x512x512, .f32⟩
  | 27 => ⟨S32x512x512, .f32⟩
  | 28 => ⟨S32x512x512, .f32⟩
  | 29 => ⟨S_, .f32⟩
  | 30 => ⟨S32x512x512, .f32⟩
  | 31 => ⟨S32x512x512, .f32⟩
  | 32 => ⟨S32x512x1, .f32⟩
  | 33 => ⟨S1x1x1, .f32⟩
  | 34 => ⟨S32x512x1, .f32⟩
  | 35 => ⟨S32x512x1, .f32⟩
  | 36 => ⟨S32x512x1, .f32⟩
  | 37 => ⟨S32x512x1, .f32⟩
  | 38 => ⟨S_, .f32⟩
  | 39 => ⟨S32x1, .f32⟩
  | 40 => ⟨S32x1x512x3, .f32⟩
  | 41 => ⟨S32x512x1x3, .f32⟩
  | 42 => ⟨S32x512x512x3, .f32⟩
  | 43 => ⟨S32x512x512x3, .f32⟩
  | 44 => ⟨S32x512x512x3, .f32⟩
  | 45 => ⟨S32x512x512x3, .f32⟩
  | 46 => ⟨S_, .f32⟩
  | 47 => ⟨S32x512x512, .f32⟩
  | 48 => ⟨S_, .f32⟩
  | 49 => ⟨S32x512x512, .f32⟩
  | 50 => ⟨S32x512x512, .i1⟩
  | 51 => ⟨S_, .f32⟩
  | 52 => ⟨S32x512x512, .f32⟩
  | 53 => ⟨S32x512x512, .i1⟩
  | 54 => ⟨S_, .f32⟩
  | 55 => ⟨S_, .f32⟩
  | 56 => ⟨S32x512x512, .f32⟩
  | 57 => ⟨S32x512x512, .f32⟩
  | 58 => ⟨S32x512x512, .f32⟩
  | 59 => ⟨S_, .f32⟩
  | 60 => ⟨S_, .f32⟩
  | 61 => ⟨S32x512x512, .f32⟩
  | 62 => ⟨S32x512x512, .f32⟩
  | 63 => ⟨S512x512, .i32⟩
  | 64 => ⟨S512x512, .i32⟩
  | 65 => ⟨S_, .i32⟩
  | 66 => ⟨S512x512, .i32⟩
  | 67 => ⟨S512x512, .i32⟩
  | 68 => ⟨S512x512, .i1⟩
  | 69 => ⟨S512x512, .f32⟩
  | 70 => ⟨S32x1x512, .f32⟩
  | 71 => ⟨S32x512x1, .f32⟩
  | 72 => ⟨S32x512x512, .f32⟩
  | 73 => ⟨S32x512x512, .f32⟩
  | 74 => ⟨S32x512x512, .f32⟩
  | 75 => ⟨S_, .f32⟩
  | 76 => ⟨S512x512, .f32⟩
  | 77 => ⟨S512x512, .f32⟩
  | 78 => ⟨S1x512x512, .f32⟩
  | 79 => ⟨S32x512x512, .f32⟩
  | 80 => ⟨S32x512x512, .f32⟩
  | 81 => ⟨S_, .f32⟩
  | 82 => ⟨S32x512x512, .f32⟩
  | 83 => ⟨S32x512x512, .i1⟩
  | 84 => ⟨S32x512x512, .f32⟩
  | 85 => ⟨S32x512x512, .f32⟩
  | 86 => ⟨S32x512x512, .f32⟩
  | 87 => ⟨S1x1x512, .f32⟩
  | 88 => ⟨S32x512x512, .f32⟩
  | 89 => ⟨S32x512x512, .f32⟩
  | 90 => ⟨S_, .f32⟩
  | 91 => ⟨S32x512x512, .f32⟩
  | 92 => ⟨S32x512x512, .f32⟩
  | 93 => ⟨S32x512x512, .f32⟩
  | 94 => ⟨S32x512x512, .f32⟩
  | 95 => ⟨S32x512x512, .i1⟩
  | 96 => ⟨S32x512x512, .f32⟩
  | 97 => ⟨S32x512x512, .f32⟩
  | 98 => ⟨S32x512x512, .f32⟩
  | 99 => ⟨S32x512x512, .f32⟩
  | 100 => ⟨S32x512x512, .f32⟩
  | 101 => ⟨S32x512x512, .f32⟩
  | 102 => ⟨S32x512x512, .f32⟩
  | 103 => ⟨S32x512x512, .f32⟩
  | 104 => ⟨S_, .f32⟩
  | 105 => ⟨S32x512x512, .f32⟩
  | 106 => ⟨S32x512x512, .f32⟩
  | 107 => ⟨S32x512x1, .f32⟩
  | 108 => ⟨S1x1x1, .f32⟩
  | 109 => ⟨S32x512x1, .f32⟩
  | 110 => ⟨S32x512x1, .f32⟩
  | 111 => ⟨S_, .f32⟩
  | 112 => ⟨S32x512x512, .f32⟩
  | 113 => ⟨S32x512x512, .f32⟩
  | 114 => ⟨S32x512x512, .f32⟩
  | 115 => ⟨S_, .f32⟩
  | 116 => ⟨S32x512x512, .f32⟩
  | 117 => ⟨S32x512x512, .f32⟩
  | 118 => ⟨S32x512, .f32⟩
  | 119 => ⟨S32x1x512, .f32⟩
  | 120 => ⟨S32x512x512, .f32⟩
  | 121 => ⟨S32x512x512, .f32⟩
  | 122 => ⟨S32x512x512, .f32⟩
  | 123 => ⟨S32x512x512, .f32⟩
  | 124 => ⟨S32x512x512, .f32⟩
  | 125 => ⟨S_, .f32⟩
  | 126 => ⟨S32, .f32⟩
  | 127 => ⟨S32x1, .f32⟩
  | _ => ⟨S32x512x1024, .f32⟩

abbrev hbmTy0_1 (i : Nat) : BufTy := match i % 128 with
  | 0 => ⟨S32x1, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_call2_v0 : Ref sig .tc := ⟨.hbm, 60, rfl⟩
abbrev main_call2_v1 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call3_cst : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_v52 : Ref sig .tc := ⟨.hbm, 103, rfl⟩
abbrev main_cst_8 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_9 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_10 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_11 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  bcast_S32x512_S32x512x1_0_1 : S32x512.BroadcastsInDim S32x512x1 (![0, 1] : Fin 2 → Fin S32x512x1.rank)
  reducesTo_S32x512x1_S32x1_d1 : S32x512x1.ReducesTo [1] S32x1
  h_S_ : 0 < S_.numel
  bcast_S32x512x3_S32x1x512x3_0_2_3 : S32x512x3.BroadcastsInDim S32x1x512x3 (![0, 2, 3] : Fin 3 → Fin S32x1x512x3.rank)
  bcast_S32x512x3_S32x512x1x3_0_1_3 : S32x512x3.BroadcastsInDim S32x512x1x3 (![0, 1, 3] : Fin 3 → Fin S32x512x1x3.rank)
  bcast_S32x1x512x3_S32x512x512x3_0_1_2_3 : S32x1x512x3.BroadcastsInDim S32x512x512x3 (![0, 1, 2, 3] : Fin 4 → Fin S32x512x512x3.rank)
  bcast_S32x512x1x3_S32x512x512x3_0_1_2_3 : S32x512x1x3.BroadcastsInDim S32x512x512x3 (![0, 1, 2, 3] : Fin 4 → Fin S32x512x512x3.rank)
  reducesTo_S32x512x512x3_S32x512x512_d3 : S32x512x512x3.ReducesTo [3] S32x512x512
  bcast_S_S512x512 : S_.BroadcastsInDim S512x512 (![] : Fin 0 → Fin S512x512.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  bcast_S32x512x1_S32x512x512_0_1_2 : S32x512x1.BroadcastsInDim S32x512x512 (![0, 1, 2] : Fin 3 → Fin S32x512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  shapeCasts_S32x512x1_S32x512 : S32x512x1.ShapeCasts S32x512
  reducesTo_S32x512x512_S32_d1_2 : S32x512x512.ReducesTo [1, 2] S32
  bcast_S32_S32x1_0 : S32.BroadcastsInDim S32x1 (![0] : Fin 1 → Fin S32x1.rank)
  dot_S32x512x1024_S1024x512_S32x512x512_2_0_01_1_n_n_wf : DotDims.WF S32x512x1024 S1024x512 S32x512x512 [2] [0] [0, 1] [1] [] []
  dot_S32x512x512_S512x1_S32x512x1_2_0_01_1_n_n_wf : DotDims.WF S32x512x512 S512x1 S32x512x1 [2] [0] [0, 1] [1] [] []

variable [Facts₀]

def dot_S32x512x1024_S1024x512_S32x512x512_2_0_01_1_n_n : DotDims S32x512x1024 S1024x512 S32x512x512 where
  lhsContracting := [2]
  rhsContracting := [0]
  lhsNonContracting := [0, 1]
  rhsNonContracting := [1]
  lhsBatch := []
  rhsBatch := []
  wf := dot_S32x512x1024_S1024x512_S32x512x512_2_0_01_1_n_n_wf
def dot_S32x512x512_S512x1_S32x512x1_2_0_01_1_n_n : DotDims S32x512x512 S512x1 S32x512x1 where
  lhsContracting := [2]
  rhsContracting := [0]
  lhsNonContracting := [0, 1]
  rhsNonContracting := [1]
  lhsBatch := []
  rhsBatch := []
  wf := dot_S32x512x512_S512x1_S32x512x1_2_0_01_1_n_n_wf

class Facts : Prop extends Facts₀ where

variable [Facts]
-- ==== Proof.Spec.lean ====
/-
  The function both programs compute, written once over plain coordinate functions.

  For ONE batch item — `x n k` its representation (atom, feature), `mask n` its mask, `R n k` its positions — the
  result is the pooled atomwise energy plus the pairwise Coulomb term:
    pooled + coulomb = (∑ n, atom W1 b1 W2 b2 n · mask n) + ∑ i, ∑ j, pair i j
  where `atom` is the two-layer perceptron  (∑ h, ssp (∑ k, x n k · W k h + bias h) · W2 h) + b2  with the
  shifted softplus `ssp t = max t 0 + log (1 + e^(-|t|)) - ln 2`, the charge `q n` is `atom` with the charge
  network's weights, and
    pair i j = q j · (1 / (ε + dist · keep)²) · q i · keep,
    keep = [mask j · mask i · (1 - [i = j]) ≠ 0],   dist = √d2 where d2 > 0, else 0.
  The squared distance `d2` is a PARAMETER: the kernel forms it as |Rᵢ|² + |Rⱼ|² - 2 Rᵢ·Rⱼ (`d2Gram`), the
  reference as ∑ₖ (Rⱼₖ - Rᵢₖ)² (`d2Diff`); on real (finite) coordinates the two agree, and that is the one place
  the finiteness of the inputs is used. `result` is the [32,1] array of these sums over the batch.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Arrays as coordinate functions -/

abbrev cur3 {a b c : Nat} (X : (⟨3, ![a, b, c]⟩ : Shape).Idx → EReal) : Fin a → Fin b → Fin c → EReal :=
  fun i j k => X (ix3 i j k)
abbrev cur2 {a b : Nat} (X : (⟨2, ![a, b]⟩ : Shape).Idx → EReal) : Fin a → Fin b → EReal :=
  fun i j => X (ix2 i j)
abbrev cur1 {a : Nat} (X : (⟨1, ![a]⟩ : Shape).Idx → EReal) : Fin a → EReal :=
  fun i => X (ix1 i)
/-- A one-column matrix as a vector. -/
abbrev col {a : Nat} (X : (⟨2, ![a, 1]⟩ : Shape).Idx → EReal) : Fin a → EReal :=
  fun i => X (ix2 i 0)
/-- A one-element vector as a number. -/
abbrev one1 (X : (⟨1, ![1]⟩ : Shape).Idx → EReal) : EReal := X (ix1 0)
/-- A mask stored with a trailing unit axis. -/
abbrev col3 {a b : Nat} (X : (⟨3, ![a, b, 1]⟩ : Shape).Idx → EReal) : Fin a → Fin b → EReal :=
  fun i j => X (ix3 i j 0)

/-! ## The float words that occur, and a truth value as a number -/

/-- ln 2 as the programs spell it (the same word on both sides: never evaluated). -/
abbrev ln2w : EReal := Ideal.ofBits .f32 0x3F317218#32
/-- The softening ε of the Coulomb denominator (the same word on both sides). -/
abbrev epsw : EReal := Ideal.ofBits .f32 0x3727C5AC#32
/-- 1.0 as a word. -/
abbrev onew : EReal := Ideal.ofBits .f32 0x3F800000#32
/-- 2.0 as a word. -/
abbrev twow : EReal := Ideal.ofBits .f32 0x40000000#32

/-- A one-bit truth value read as the number 0 or 1. -/
def bitR (b : BitVec 1) : EReal := ((b.toNat : ℝ) : EReal)

/-- Widening the bit to 32 bits and reading it as a SIGNED integer gives the same number. -/
theorem toInt_setWidth_bit (b : BitVec 1) : (((b.setWidth 32).toInt : ℝ) : EReal) = bitR b := by
  have h : ∀ b : BitVec 1, (b.setWidth 32).toInt = (b.toNat : Int) := by decide
  unfold bitR
  rw [h b]
  simp

/-- "not equal" compares the same way whether or not it is the ordered form: the extended reals have no NaN. -/
theorem cmp_one_eq_une (x y : EReal) : Ideal.cmp .one x y = Ideal.cmp .une x y := rfl

/-- A select on "x ≠ x" takes its second branch. -/
theorem select_une_self {α : Type} (a : EReal) (p q : α) : Scalar.select (Ideal.cmp .une a a) p q = q := by
  simp [Scalar.select, Ideal.cmp]

/-! ## The atomwise networks, for ONE batch item

  `x n k` is the item's representation (atom, feature); `mask n`, `q n` its mask and charges. -/

/-- Shifted softplus, as `logaddexp x 0 - ln 2`. -/
def ssp (x : EReal) : EReal := (max x 0 + Ideal.log1p (Ideal.exp (-(max x (-x))))) - ln2w

/-- The hidden layer at (atom, unit). -/
def hidden (x : Fin 512 → Fin 1024 → EReal) (W : Fin 1024 → Fin 512 → EReal) (bias : Fin 512 → EReal)
    (n : Fin 512) (h : Fin 512) : EReal :=
  ssp ((∑ k : Fin 1024, x n k * W k h) + bias h)

/-- The network's output at an atom. -/
def atom (x : Fin 512 → Fin 1024 → EReal) (W : Fin 1024 → Fin 512 → EReal) (bias : Fin 512 → EReal)
    (W2 : Fin 512 → EReal) (b2 : EReal) (n : Fin 512) : EReal :=
  (∑ h : Fin 512, hidden x W bias n h * W2 h) + b2

/-- The masked sum of the energy network's outputs over the item's atoms. -/
def pooled (x : Fin 512 → Fin 1024 → EReal) (mask : Fin 512 → EReal) (W : Fin 1024 → Fin 512 → EReal)
    (bias : Fin 512 → EReal) (W2 : Fin 512 → EReal) (b2 : EReal) : EReal :=
  ∑ n : Fin 512, atom x W bias W2 b2 n * mask n

/-! ## The pairwise term, for one batch item -/

/-- [i = j] as a number, by comparing the two positions as 32-bit words. -/
def eye (i j : Fin 512) : EReal := bitR (IntOp.cmpi .eq (BitVec.ofNat 32 i.val) (BitVec.ofNat 32 j.val))

/-- 1 where both atoms are real and distinct, else 0. -/
def keep (mask : Fin 512 → EReal) (i j : Fin 512) : EReal :=
  bitR (Ideal.cmp .une ((mask j * mask i) * (onew - eye i j)) 0)

/-- The distance from the squared distance, with the safe square root. -/
def dist (d2 : EReal) : EReal :=
  Scalar.select (Ideal.cmp .ogt d2 0) (Ideal.sqrt (Scalar.select (Ideal.cmp .ogt d2 0) d2 onew)) 0

/-- One pair's Coulomb term. -/
def pair (D2 : Fin 512 → Fin 512 → EReal) (mask q : Fin 512 → EReal) (i j : Fin 512) : EReal :=
  ((q j * Ideal.div onew ((epsw + dist (D2 i j) * keep mask i j) * (epsw + dist (D2 i j) * keep mask i j))) * q i)
    * keep mask i j

/-- The item's Coulomb energy. -/
def coulomb (D2 : Fin 512 → Fin 512 → EReal) (mask q : Fin 512 → EReal) : EReal :=
  ∑ i : Fin 512, ∑ j : Fin 512, pair D2 mask q i j

/-- Squared distance as the sum of squared coordinate differences. -/
def d2Diff (R : Fin 512 → Fin 3 → EReal) (i j : Fin 512) : EReal :=
  ∑ k : Fin 3, (R j k - R i k) * (R j k - R i k)

/-- Squared distance as |Rᵢ|² + |Rⱼ|² - 2 Rᵢ·Rⱼ. -/
def d2Gram (R : Fin 512 → Fin 3 → EReal) (i j : Fin 512) : EReal :=
  ((R i 0 * R i 0 + R i 1 * R i 1 + R i 2 * R i 2) + (R j 0 * R j 0 + R j 1 * R j 1 + R j 2 * R j 2))
    - twow * ((R i 0 * R j 0 + R i 1 * R j 1) + R i 2 * R j 2)

/-! ## The result -/

/-- The whole result from the eleven argument arrays, for a choice of squared-distance form. -/
def result (D2 : (Fin 512 → Fin 3 → EReal) → Fin 512 → Fin 512 → EReal)
    (rep : (⟨3, ![32, 512, 1024]⟩ : Shape).Idx → EReal) (R : (⟨3, ![32, 512, 3]⟩ : Shape).Idx → EReal)
    (mask : (⟨2, ![32, 512]⟩ : Shape).Idx → EReal)
    (W1 : (⟨2, ![1024, 512]⟩ : Shape).Idx → EReal) (b1 : (⟨1, ![512]⟩ : Shape).Idx → EReal)
    (W2 : (⟨2, ![512, 1]⟩ : Shape).Idx → EReal) (b2 : (⟨1, ![1]⟩ : Shape).Idx → EReal)
    (Wc1 : (⟨2, ![1024, 512]⟩ : Shape).Idx → EReal) (bc1 : (⟨1, ![512]⟩ : Shape).Idx → EReal)
    (Wc2 : (⟨2, ![512, 1]⟩ : Shape).Idx → EReal) (bc2 : (⟨1, ![1]⟩ : Shape).Idx → EReal) :
    (⟨2, ![32, 1]⟩ : Shape).Idx → EReal :=
  fun i => pooled (cur3 rep (i 0)) (cur2 mask (i 0)) (cur2 W1) (cur1 b1) (col W2) (one1 b2)
    + coulomb (D2 (cur3 R (i 0))) (cur2 mask (i 0)) (atom (cur3 rep (i 0)) (cur2 Wc1) (cur1 bc1) (col Wc2) (one1 bc2))

end Cert.Spec

end
-- ==== Proof.MlpBody.lean ====
import proofs.«178759_j2774548873945_1_alg».proof.Proof.Gen.KernelIdeal.Skeleton
import proofs.«178759_j2774548873945_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MlpBody

open Cert.KernelIdeal Cert.KernelIdeal.Gen Idealize.ShloMosaic Idealize.ShloMosaic.ValueIdx Cert.Spec

/-! ## The shifted softplus, elementwise -/

/-- The activation as the kernel spells it: logaddexp(x, 0) by cases, minus ln 2. -/
private def act (v : FVec Ideal S512x512 .f32) : FVec Ideal S512x512 .f32 :=
  subf
    (select
      (cmpf .one (subf v (broadcast S512x512 (Scalar.ofBits (F := Ideal) .f32 0x00000000#32)))
        (subf v (broadcast S512x512 (Scalar.ofBits (F := Ideal) .f32 0x00000000#32))))
      (addf v (broadcast S512x512 (Scalar.ofBits (F := Ideal) .f32 0x00000000#32)))
      (addf (maximumf v (broadcast S512x512 (Scalar.ofBits (F := Ideal) .f32 0x00000000#32)))
        (log1p (exp (subf (broadcast S512x512 (Scalar.ofBits (F := Ideal) .f32 0x00000000#32))
          (absf (subf v (broadcast S512x512 (Scalar.ofBits (F := Ideal) .f32 0x00000000#32)))))))))
    (broadcast S512x512 (Scalar.ofBits (F := Ideal) .f32 0x3F317218#32))

/-- At every element it is the shifted softplus of that element. -/
private theorem act_apply (v : FVec Ideal S512x512 .f32) (j : S512x512.Idx) : act v j = ssp (v j) := by
  show Scalar.select (FloatOps.cmpf .one (v j - Ideal.ofBits .f32 0x00000000#32) (v j - Ideal.ofBits .f32 0x00000000#32))
      (v j + Ideal.ofBits .f32 0x00000000#32)
      (max (v j) (Ideal.ofBits .f32 0x00000000#32)
        + FloatOps.log1p (FloatOps.exp (Ideal.ofBits .f32 0x00000000#32 - FloatOps.absf (v j - Ideal.ofBits .f32 0x00000000#32))))
      - Ideal.ofBits .f32 0x3F317218#32 = _
  rw [Ideal.cmpf_def, cmp_one_eq_une, select_une_self, Ideal.absf_def, Ideal.ofBits_zero_f32, sub_zero, zero_sub,
    Ideal.log1p_def, Ideal.exp_def]
  rfl

/-! ## The two contractions read at an index -/

private theorem lhsA_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
private theorem lhsA_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
private theorem rhsA_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
private theorem rhsA_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The first product at (atom, unit): the sum over the 1024 features. -/
private theorem mmA_apply (l : FVec Ideal S512x1024 .bf16) (r : FVec Ideal S1024x512 .bf16) (n h : Fin 512) :
    matmul dot_S512x1024_S1024x512_S512x512_1_0_0_1_n_n none l r (constant (F := Ideal) S512x512 .f32 0x00000000#32) (ix2 n h)
      = ∑ k : Fin 1024, l (ix2 n k) * r (ix2 k h) := by
  show FloatOps.matmul dot_S512x1024_S1024x512_S512x512_1_0_0_1_n_n none l r (constant (F := Ideal) S512x512 .f32 0x00000000#32) (ix2 n h) = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 n h) ((contrEquiv1 dot_S512x1024_S1024x512_S512x512_1_0_0_1_n_n 1024 rfl rfl).symm k) = ix2 n k := funext fun a => Fin.ext (by
    match a with
    | ⟨0, _⟩ => exact lhsA_0 _ _
    | ⟨1, _⟩ => exact (lhsA_1 _ _).trans hk)
  have er : dot_S512x1024_S1024x512_S512x512_1_0_0_1_n_n.rhsIdx (ix2 n h) ((contrEquiv1 dot_S512x1024_S1024x512_S512x512_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

private theorem lhsB_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
private theorem lhsB_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
private theorem rhsB_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
private theorem rhsB_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-- The second product at an atom: the sum over the 512 hidden units. -/
private theorem mmB_apply (l : FVec Ideal S512x512 .bf16) (r : FVec Ideal S512x1 .bf16) (n : Fin 512) (c : Fin 1) :
    matmul dot_S512x512_S512x1_S512x1_1_0_0_1_n_n none l r (constant (F := Ideal) S512x1 .f32 0x00000000#32) (ix2 n c)
      = ∑ h : Fin 512, l (ix2 n h) * r (ix2 h c) := by
  show FloatOps.matmul dot_S512x512_S512x1_S512x1_1_0_0_1_n_n none l r (constant (F := Ideal) S512x1 .f32 0x00000000#32) (ix2 n c) = _
  rw [Ideal.matmul_constant_zero_apply, ← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 n c) ((contrEquiv1 dot_S512x512_S512x1_S512x1_1_0_0_1_n_n 512 rfl rfl).symm k) = ix2 n k := funext fun a => Fin.ext (by
    match a with
    | ⟨0, _⟩ => exact lhsB_0 _ _
    | ⟨1, _⟩ => exact (lhsB_1 _ _).trans hk)
  have er : dot_S512x512_S512x1_S512x1_1_0_0_1_n_n.rhsIdx (ix2 n c) ((contrEquiv1 dot_S512x512_S512x1_S512x1_1_0_0_1_n_n 512 rfl rfl).symm k) = ix2 k c := funext fun a => Fin.ext (by
    match a with
    | ⟨0, _⟩ => exact (rhsB_0 _ _).trans hk
    | ⟨1, _⟩ => exact rhsB_1 _ _)
  rw [el, er]

/-! ## The layers -/

/-- The item's representation block, read as a matrix (atom, feature). -/
private theorem rep_apply (x0 : Vec Ideal S1x512x1024 .f32) (n : Fin 512) (k : Fin 1024) :
    k0_pay3 (F := Ideal) x0 (ix2 n k) = x0 (ix3 0 n k) := by
  unfold k0_pay3
  exact shapeCast_1ab_ab_apply x0 shapeCasts_S1x512x1024_S512x1024 n k

/-- The hidden layer before its activation: the product with the weights plus the bias, repeated along the atoms. -/
private def pre (x : FVec Ideal S512x1024 .bf16) (W : Vec Ideal S1024x512 .f32) (b : Vec Ideal S512 .f32) :
    FVec Ideal S512x512 .f32 :=
  addf
    (matmul dot_S512x1024_S1024x512_S512x512_1_0_0_1_n_n none x (truncf .bf16 W bitsLt_bf16_f32)
      (constant S512x512 .f32 0x00000000#32))
    (broadcastTo S512x512 (shapeCast S1x512 b shapeCasts_S512_S1x512) broadcasts_S1x512_S512x512)

private theorem pre_apply (x : FVec Ideal S512x1024 .bf16) (W : Vec Ideal S1024x512 .f32) (b : Vec Ideal S512 .f32)
    (n h : Fin 512) :
    pre x W b (ix2 n h) = (∑ k : Fin 1024, x (ix2 n k) * W (ix2 k h)) + b (ix1 h) := by
  unfold pre
  rw [addf_apply, mmA_apply, broadcastTo_1b_ab_apply, shapeCast_a_1a_apply]
  rfl

/-- The output layer: the product with the one output column plus the output bias, repeated along the atoms. -/
private def out (hd : FVec Ideal S512x512 .f32) (W2 : Vec Ideal S512x1 .f32) (b2 : Vec Ideal S1 .f32) :
    FVec Ideal S512x1 .f32 :=
  addf
    (matmul dot_S512x512_S512x1_S512x1_1_0_0_1_n_n none (truncf .bf16 hd bitsLt_bf16_f32)
      (truncf .bf16 W2 bitsLt_bf16_f32) (constant S512x1 .f32 0x00000000#32))
    (broadcastTo S512x1 (shapeCast S1x1 b2 shapeCasts_S1_S1x1) broadcasts_S1x1_S512x1)

private theorem out_apply (hd : FVec Ideal S512x512 .f32) (W2 : Vec Ideal S512x1 .f32) (b2 : Vec Ideal S1 .f32)
    (n : Fin 512) :
    out hd W2 b2 (ix2 n 0) = (∑ h : Fin 512, hd (ix2 n h) * W2 (ix2 h 0)) + b2 (ix1 0) := by
  unfold out
  rw [addf_apply, mmB_apply, broadcastTo_1b_ab_apply, shapeCast_a_1a_apply]
  rfl

/-- The whole network at an atom is the specification's. -/
private theorem net_apply (x0 : Vec Ideal S1x512x1024 .f32) (W : Vec Ideal S1024x512 .f32) (b : Vec Ideal S512 .f32)
    (W2 : Vec Ideal S512x1 .f32) (b2 : Vec Ideal S1 .f32) (n : Fin 512) :
    out (act (pre (k0_pay3 x0) W b)) W2 b2 (ix2 n 0) = atom (cur3 x0 0) (cur2 W) (cur1 b) (col W2) (one1 b2) n := by
  rw [out_apply]
  unfold atom Cert.Spec.hidden
  congr 1
  refine Finset.sum_congr rfl fun h _ => ?_
  rw [act_apply, pre_apply]
  simp only [rep_apply]

/-! ## The two stored values -/

/-- The energy payload is the lane sum of the masked network outputs, viewed [1,1]. -/
private theorem pay4_eq (x0 : Vec Ideal S1x512x1024 .f32) (x2 : Vec Ideal S1024x512 .f32) (x3 : Vec Ideal S512 .f32)
    (x4 : Vec Ideal S512x1 .f32) (x5 : Vec Ideal S1 .f32) (x1 : Vec Ideal S1x512x1 .f32) :
    k0_pay4 (F := Ideal) x0 x2 x3 x4 x5 x1
      = shapeCast S1x1
          (multiReduction (F := Ideal) .add [0] S1
            (mulf (out (act (pre (k0_pay3 x0) x2 x3)) x4 x5) (shapeCast S512x1 x1 shapeCasts_S1x512x1_S512x1))
            0x00000000#32 reduces_S512x1_S1 (.inl rfl) rfl)
          shapeCasts_S1_S1x1 := rfl

/-- The charge payload is the network's output column, viewed [1,512,1]. -/
private theorem pay2_eq (v2 : FVec Ideal S512x1024 .bf16) (x6 : Vec Ideal S1024x512 .f32) (x7 : Vec Ideal S512 .f32)
    (x8 : Vec Ideal S512x1 .f32) (x9 : Vec Ideal S1 .f32) :
    k0_pay2 (F := Ideal) v2 x6 x7 x8 x9
      = shapeCast S1x512x1 (out (act (pre v2 x6 x7)) x8 x9) shapeCasts_S512x1_S1x512x1 := rfl

/-- What the first kernel stores in its energy block, from the blocks it loads: the masked sum over the item's atoms. -/
theorem energy_block (x0 : Vec Ideal S1x512x1024 .f32) (x1 : Vec Ideal S1x512x1 .f32) (x2 : Vec Ideal S1024x512 .f32)
    (x3 : Vec Ideal S512 .f32) (x4 : Vec Ideal S512x1 .f32) (x5 : Vec Ideal S1 .f32) (y : S1x1x1.Idx) :
    k0_pay1 (F := Ideal) (k0_pay4 x0 x2 x3 x4 x5 x1) y
      = pooled (cur3 x0 0) (col3 x1 0) (cur2 x2) (cur1 x3) (col x4) (one1 x5) := by
  obtain ⟨a, b, c, rfl⟩ : ∃ (a b c : Fin 1), y = ix3 a b c := ⟨y 0, y 1, y 2, eq_ix3 y⟩
  obtain rfl : c = 0 := Subsingleton.elim _ _
  rw [pay4_eq]
  unfold k0_pay1
  rw [shapeCast_ab_1ab_apply, shapeCast_a_1a_apply]
  refine (Ideal.multiReduction_add_single _ 0x00000000#32 reduces_S512x1_S1 (.inl rfl) rfl (ix1 0)).trans ?_
  unfold pooled
  show ∑ n : Fin 512, _ = ∑ n : Fin 512, _
  refine Finset.sum_congr rfl fun n _ => ?_
  have hl : reduces_S512x1_S1.lift (ix1 (0 : Fin 1)) n = ix2 n (0 : Fin 1) := funext fun a => Fin.ext (by
    match a with
    | ⟨0, _⟩ => rfl
    | ⟨1, _⟩ => rfl)
  rw [hl, mulf_apply, net_apply, shapeCast_1ab_ab_apply]

/-- What the first kernel stores in its charge block: the charge network's output at each atom. -/
theorem charge_block (x0 : Vec Ideal S1x512x1024 .f32) (x6 : Vec Ideal S1024x512 .f32) (x7 : Vec Ideal S512 .f32)
    (x8 : Vec Ideal S512x1 .f32) (x9 : Vec Ideal S1 .f32) (y : S1x512x1.Idx) :
    k0_pay2 (F := Ideal) (k0_pay3 x0) x6 x7 x8 x9 y
      = atom (cur3 x0 0) (cur2 x6) (cur1 x7) (col x8) (one1 x9) (y 1) := by
  obtain ⟨a, n, c, rfl⟩ : ∃ (a : Fin 1) (n : Fin 512) (c : Fin 1), y = ix3 a n c := ⟨y 0, y 1, y 2, eq_ix3 y⟩
  obtain rfl : c = 0 := Subsingleton.elim _ _
  rw [pay2_eq, shapeCast_ab_1ab_apply, net_apply]

end Cert.KernelIdeal.MlpBody

end
-- ==== Proof.MlpArray.lean ====
import proofs.«178759_j2774548873945_1_alg».proof.Proof.Gen.KernelIdeal.Frame
import proofs.«178759_j2774548873945_1_alg».proof.Proof.MlpBody

noncomputable section

namespace Cert.KernelIdeal.MlpArray

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-! ## The zero offsets of a whole-block access -/

private theorem zero3 : (![0, 0, 0] : Fin 3 → Nat) = fun _ => 0 := funext fun a => by fin_cases a <;> rfl
private theorem zero2 : (![0, 0] : Fin 2 → Nat) = fun _ => 0 := funext fun a => by fin_cases a <;> rfl
private theorem zero1 : (![0] : Fin 1 → Nat) = fun _ => 0 := funext fun a => by fin_cases a <;> rfl

/-! ## The windows' index maps over the grid

  Grid point `t` is batch item `t`: the per-item windows sit at block (t, 0, 0), the weights' windows at block 0. -/

private theorem item_windows : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

private theorem weight_windows : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## Each input block, read off its array -/

/-- The representation's block at point `t` is item `t`'s slab of the array. -/
private theorem rep_block (c : Dev nD) (t : Fin cfg0.N) (b : Fin 32) (hb : b.val = t.val) (n : Fin 512) (k : Fin 1024) :
    (iblk0 V c 0 t : Vec Ideal S1x512x1024 .f32) (ix3 0 n k) = (V c main_arg0 : S32x512x1024.Idx → EReal) (ix3 b n k) := by
  obtain ⟨e0, e1, e2, -⟩ := item_windows t
  show V c main_arg0 (((cfg0.win 0).blk t).view.emb (ix3 0 n k)) = V c main_arg0 (ix3 b n k)
  refine congrArg _ ?_
  funext a; apply Fin.ext
  match a with
  | ⟨0, _⟩ => show win0_0.index t (0 : Fin 3) * 1 + 1 * 0 = b.val; omega
  | ⟨1, _⟩ => show win0_0.index t (1 : Fin 3) * 512 + 1 * n.val = n.val; omega
  | ⟨2, _⟩ => show win0_0.index t (2 : Fin 3) * 1024 + 1 * k.val = k.val; omega

/-- The mask's block at point `t` is item `t`'s column of the array. -/
private theorem mask_block (c : Dev nD) (t : Fin cfg0.N) (b : Fin 32) (hb : b.val = t.val) (n : Fin 512) :
    (iblk0 V c 1 t : Vec Ideal S1x512x1 .f32) (ix3 0 n 0) = (V c main_v0 : S32x512x1.Idx → EReal) (ix3 b n 0) := by
  obtain ⟨-, -, -, e0, e1, e2, -⟩ := item_windows t
  show V c main_v0 (((cfg0.win 1).blk t).view.emb (ix3 0 n 0)) = V c main_v0 (ix3 b n 0)
  refine congrArg _ ?_
  funext a; apply Fin.ext
  match a with
  | ⟨0, _⟩ => show win0_1.index t (0 : Fin 3) * 1 + 1 * 0 = b.val; omega
  | ⟨1, _⟩ => show win0_1.index t (1 : Fin 3) * 512 + 1 * n.val = n.val; omega
  | ⟨2, _⟩ => show win0_1.index t (2 : Fin 3) * 1 + 1 * 0 = 0; omega

/-- A weight window's one block is its whole array. -/
private theorem w1_block (c : Dev nD) (t : Fin cfg0.N) :
    (iblk0 V c 2 t : Vec Ideal S1024x512 .f32) = (V c main_arg3 : S1024x512.Idx → EReal) := by
  obtain ⟨e0, e1, -⟩ := weight_windows t
  funext y
  show V c main_arg3 (((cfg0.win 2).blk t).view.emb y) = V c main_arg3 y
  refine congrArg _ ?_
  funext a; apply Fin.ext
  match a with
  | ⟨0, _⟩ => show win0_2.index t (0 : Fin 2) * 1024 + 1 * (y 0).val = (y 0).val; omega
  | ⟨1, _⟩ => show win0_2.index t (1 : Fin 2) * 512 + 1 * (y 1).val = (y 1).val; omega

private theorem b1_block (c : Dev nD) (t : Fin cfg0.N) :
    (iblk0 V c 3 t : Vec Ideal S512 .f32) = (V c main_arg4 : S512.Idx → EReal) := by
  obtain ⟨-, -, e0, -⟩ := weight_windows t
  funext y
  show V c main_arg4 (((cfg0.win 3).blk t).view.emb y) = V c main_arg4 y
  refine congrArg _ ?_
  funext a; apply Fin.ext
  match a with
  | ⟨0, _⟩ => show win0_3.index t (0 : Fin 1) * 512 + 1 * (y 0).val = (y 0).val; omega

private theorem w2_block (c : Dev nD) (t : Fin cfg0.N) :
    (iblk0 V c 4 t : Vec Ideal S512x1 .f32) = (V c main_arg5 : S512x1.Idx → EReal) := by
  obtain ⟨-, -, -, e0, e1, -⟩ := weight_windows t
  funext y
  show V c main_arg5 (((cfg0.win 4).blk t).view.emb y) = V c main_arg5 y
  refine congrArg _ ?_
  funext a; apply Fin.ext
  match a with
  | ⟨0, _⟩ => show win0_4.index t (0 : Fin 2) * 512 + 1 * (y 0).val = (y 0).val; omega
  | ⟨1, _⟩ => show win0_4.index t (1 : Fin 2) * 1 + 1 * (y 1).val = (y 1).val; omega

private theorem b2_block (c : Dev nD) (t : Fin cfg0.N) :
    (iblk0 V c 5 t : Vec Ideal S1 .f32) = (V c main_arg6 : S1.Idx → EReal) := by
  obtain ⟨-, -, -, -, -, e0, -⟩ := weight_windows t
  funext y
  show V c main_arg6 (((cfg0.win 5).blk t).view.emb y) = V c main_arg6 y
  refine congrArg _ ?_
  funext a; apply Fin.ext
  match a with
  | ⟨0, _⟩ => show win0_5.index t (0 : Fin 1) * 1 + 1 * (y 0).val = (y 0).val; omega

private theorem cw1_block (c : Dev nD) (t : Fin cfg0.N) :
    (iblk0 V c 6 t : Vec Ideal S1024x512 .f32) = (V c main_arg7 : S1024x512.Idx → EReal) := by
  obtain ⟨-, -, -, -, -, -, e0, e1, -⟩ := weight_windows t
  funext y
  show V c main_arg7 (((cfg0.win 6).blk t).view.emb y) = V c main_arg7 y
  refine congrArg _ ?_
  funext a; apply Fin.ext
  match a with
  | ⟨0, _⟩ => show win0_6.index t (0 : Fin 2) * 1024 + 1 * (y 0).val = (y 0).val; omega
  | ⟨1, _⟩ => show win0_6.index t (1 : Fin 2) * 512 + 1 * (y 1).val = (y 1).val; omega

private theorem cb1_block (c : Dev nD) (t : Fin cfg0.N) :
    (iblk0 V c 7 t : Vec Ideal S512 .f32) = (V c main_arg8 : S512.Idx → EReal) := by
  obtain ⟨-, -, -, -, -, -, -, -, e0, -⟩ := weight_windows t
  funext y
  show V c main_arg8 (((cfg0.win 7).blk t).view.emb y) = V c main_arg8 y
  refine congrArg _ ?_
  funext a; apply Fin.ext
  match a with
  | ⟨0, _⟩ => show win0_7.index t (0 : Fin 1) * 512 + 1 * (y 0).val = (y 0).val; omega

private theorem cw2_block (c : Dev nD) (t : Fin cfg0.N) :
    (iblk0 V c 8 t : Vec Ideal S512x1 .f32) = (V c main_arg9 : S512x1.Idx → EReal) := by
  obtain ⟨-, -, -, -, -, -, -, -, -, e0, e1, -⟩ := weight_windows t
  funext y
  show V c main_arg9 (((cfg0.win 8).blk t).view.emb y) = V c main_arg9 y
  refine congrArg _ ?_
  funext a; apply Fin.ext
  match a with
  | ⟨0, _⟩ => show win0_8.index t (0 : Fin 2) * 512 + 1 * (y 0).val = (y 0).val; omega
  | ⟨1, _⟩ => show win0_8.index t (1 : Fin 2) * 1 + 1 * (y 1).val = (y 1).val; omega

private theorem cb2_block (c : Dev nD) (t : Fin cfg0.N) :
    (iblk0 V c 9 t : Vec Ideal S1 .f32) = (V c main_arg10 : S1.Idx → EReal) := by
  obtain ⟨-, -, -, -, -, -, -, -, -, -, -, e0⟩ := weight_windows t
  funext y
  show V c main_arg10 (((cfg0.win 9).blk t).view.emb y) = V c main_arg10 y
  refine congrArg _ ?_
  funext a; apply Fin.ext
  match a with
  | ⟨0, _⟩ => show win0_9.index t (0 : Fin 1) * 1 + 1 * (y 0).val = (y 0).val; omega

/-! ## The energy array -/

/-- The energy array's closed form: at batch item `i 0` the item's pooled energy. -/
private abbrev energyFn (c : Dev nD) : S32x1x1.Idx → EReal :=
  fun i => pooled (cur3 (V c main_arg0) (i 0)) (col3 (V c main_v0) (i 0)) (cur2 (V c main_arg3)) (cur1 (V c main_arg4))
    (col (V c main_arg5)) (one1 (V c main_arg6))

/-- The pooled energy of the blocks at point `t` is the pooled energy of item `b = t` of the arrays. -/
private theorem pooled_blocks (c : Dev nD) (t : Fin cfg0.N) (b : Fin 32) (hb : b.val = t.val) :
    pooled (cur3 (iblk0 V c 0 t : Vec Ideal S1x512x1024 .f32) 0) (col3 (iblk0 V c 1 t : Vec Ideal S1x512x1 .f32) 0)
        (cur2 (iblk0 V c 2 t : Vec Ideal S1024x512 .f32)) (cur1 (iblk0 V c 3 t : Vec Ideal S512 .f32))
        (col (iblk0 V c 4 t : Vec Ideal S512x1 .f32)) (one1 (iblk0 V c 5 t : Vec Ideal S1 .f32))
      = pooled (cur3 (V c main_arg0 : S32x512x1024.Idx → EReal) b) (col3 (V c main_v0 : S32x512x1.Idx → EReal) b)
          (cur2 (V c main_arg3 : S1024x512.Idx → EReal)) (cur1 (V c main_arg4 : S512.Idx → EReal))
          (col (V c main_arg5 : S512x1.Idx → EReal)) (one1 (V c main_arg6 : S1.Idx → EReal)) := by
  have h0 : cur3 (iblk0 V c 0 t : Vec Ideal S1x512x1024 .f32) 0 = cur3 (V c main_arg0 : S32x512x1024.Idx → EReal) b :=
    funext fun n => funext fun k => rep_block V c t b hb n k
  have h1 : col3 (iblk0 V c 1 t : Vec Ideal S1x512x1 .f32) 0 = col3 (V c main_v0 : S32x512x1.Idx → EReal) b :=
    funext fun n => mask_block V c t b hb n
  rw [h0, h1, w1_block V c t, b1_block V c t, w2_block V c t, b2_block V c t]

/-- What point `t` writes back is block `t` of the closed form. -/
private theorem energy_flushed (c : Dev nD) (t : Fin cfg0.N) :
    (dat0 (F := Ideal) V c).flushed 10 t = ((cfg0.win 10).blk t).view.read (Elt Ideal) (energyFn V c) := by
  show (cfg0.win 10).cut (grid0.coords t) ((dat0 (F := Ideal) V c).after 10 t) = _
  rw [after0_10]
  unfold out0_10
  rw [View.canon_unit_zero zero3]
  simp only [View.ld_unit_zero (S := S1x512x1024) zero3, View.ld_unit_zero (S := S1x512x1) zero3,
    View.ld_unit_zero (S := S1024x512) zero2, View.ld_unit_zero (S := S512) zero1,
    View.ld_unit_zero (S := S512x1) zero2, View.ld_unit_zero (S := S1) zero1]
  funext y
  obtain ⟨-, -, -, -, -, -, e0, e1, e2, -⟩ := item_windows t
  show k0_pay1 (F := Ideal) (k0_pay4 (iblk0 V c 0 t) (iblk0 V c 2 t) (iblk0 V c 3 t) (iblk0 V c 4 t) (iblk0 V c 5 t) (iblk0 V c 1 t)) y
    = energyFn V c (((cfg0.win 10).blk t).view.emb y)
  refine (MlpBody.energy_block (iblk0 V c 0 t) (iblk0 V c 1 t) (iblk0 V c 2 t) (iblk0 V c 3 t) (iblk0 V c 4 t) (iblk0 V c 5 t) y).trans ?_
  refine pooled_blocks V c t _ ?_
  have hy : (y 0).val < 1 := (y 0).isLt
  show win0_10.index t (0 : Fin 3) * 1 + 1 * (y 0).val = t.val
  omega

/-- An index of the energy array is in point `t`'s block iff each coordinate is in the block's range on its axis. -/
private theorem energy_mem (t : Fin cfg0.N) (i : S32x1x1.Idx) :
    i ∈ ((cfg0.win 10).blk t).view.set ↔ ∀ a : Fin 3, win0_10.index t a * S1x1x1.size a ≤ (i a).val ∧ (i a).val < win0_10.index t a * S1x1x1.size a + S1x1x1.size a := by
  show i ∈ ((View.whole main_v1_0).slice (win0_10.rect t)).set ↔ _
  rw [View.set_slice_whole, Rect.mem_set_unit]
  exact Iff.rfl

/-- Batch item `b` is written back by point `b`. -/
private theorem energy_cover (i : S32x1x1.Idx) :
    ∃ t : Fin cfg0.N, (cfg0.win 10).flush t = true ∧ i ∈ ((cfg0.win 10).blk t).view.set := by
  have hi0 : (i 0).val < 32 := (i 0).isLt
  have hi1 : (i 1).val < 1 := (i 1).isLt
  have hi2 : (i 2).val < 1 := (i 2).isLt
  have hN : cfg0.N = 32 := N_0
  let t : Fin cfg0.N := ⟨(i 0).val, by omega⟩
  obtain ⟨-, -, -, -, -, -, e0, e1, e2, -⟩ := item_windows t
  have ht : t.val = (i 0).val := rfl
  refine ⟨t, flush0_10 t, ?_⟩
  rw [energy_mem]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 1 ≤ (i 2).val ∧ (i 2).val < win0_10.index t (2 : Fin 3) * 1 + 1; omega

/-- After the first region the energy array holds, at batch item `i 0`, the item's pooled energy of the arrays the
    region was entered with. -/
theorem energy_array (c : Dev nD) :
    (dat0 (F := Ideal) V c).arrAt 10 cfg0.N
      = fun i => pooled (cur3 (V c main_arg0) (i 0)) (col3 (V c main_v0) (i 0)) (cur2 (V c main_arg3)) (cur1 (V c main_arg4))
          (col (V c main_arg5)) (one1 (V c main_arg6)) :=
  (dat0 (F := Ideal) V c).arrAt_eq_of_cover 10 (energyFn V c) (fun t _ => energy_flushed V c t) energy_cover

/-! ## The charge array -/

/-- The charge array's closed form: at (item, atom) the charge network's output. -/
private abbrev chargeFn (c : Dev nD) : S32x512x1.Idx → EReal :=
  fun i => atom (cur3 (V c main_arg0) (i 0)) (cur2 (V c main_arg7)) (cur1 (V c main_arg8))
    (col (V c main_arg9)) (one1 (V c main_arg10)) (i 1)

/-- The charge of atom `n` from the blocks at point `t` is the charge of atom `n` of item `b = t` of the arrays. -/
private theorem atom_blocks (c : Dev nD) (t : Fin cfg0.N) (b : Fin 32) (hb : b.val = t.val) (n n' : Fin 512) (hn : n'.val = n.val) :
    atom (cur3 (iblk0 V c 0 t : Vec Ideal S1x512x1024 .f32) 0)
        (cur2 (iblk0 V c 6 t : Vec Ideal S1024x512 .f32)) (cur1 (iblk0 V c 7 t : Vec Ideal S512 .f32))
        (col (iblk0 V c 8 t : Vec Ideal S512x1 .f32)) (one1 (iblk0 V c 9 t : Vec Ideal S1 .f32)) n
      = atom (cur3 (V c main_arg0 : S32x512x1024.Idx → EReal) b)
          (cur2 (V c main_arg7 : S1024x512.Idx → EReal)) (cur1 (V c main_arg8 : S512.Idx → EReal))
          (col (V c main_arg9 : S512x1.Idx → EReal)) (one1 (V c main_arg10 : S1.Idx → EReal)) n' := by
  obtain rfl : n' = n := Fin.ext hn
  have h0 : cur3 (iblk0 V c 0 t : Vec Ideal S1x512x1024 .f32) 0 = cur3 (V c main_arg0 : S32x512x1024.Idx → EReal) b :=
    funext fun n => funext fun k => rep_block V c t b hb n k
  rw [h0, cw1_block V c t, cb1_block V c t, cw2_block V c t, cb2_block V c t]

/-- What point `t` writes back is block `t` of the closed form. -/
private theorem charge_flushed (c : Dev nD) (t : Fin cfg0.N) :
    (dat0 (F := Ideal) V c).flushed 11 t = ((cfg0.win 11).blk t).view.read (Elt Ideal) (chargeFn V c) := by
  show (cfg0.win 11).cut (grid0.coords t) ((dat0 (F := Ideal) V c).after 11 t) = _
  rw [after0_11]
  unfold out0_11
  rw [View.canon_unit_zero zero3]
  simp only [View.ld_unit_zero (S := S1x512x1024) zero3,
    View.ld_unit_zero (S := S1024x512) zero2, View.ld_unit_zero (S := S512) zero1,
    View.ld_unit_zero (S := S512x1) zero2, View.ld_unit_zero (S := S1) zero1]
  funext y
  obtain ⟨-, -, -, -, -, -, -, -, -, e0, e1, e2⟩ := item_windows t
  show k0_pay2 (F := Ideal) (k0_pay3 (iblk0 V c 0 t)) (iblk0 V c 6 t) (iblk0 V c 7 t) (iblk0 V c 8 t) (iblk0 V c 9 t) y
    = chargeFn V c (((cfg0.win 11).blk t).view.emb y)
  refine (MlpBody.charge_block (iblk0 V c 0 t) (iblk0 V c 6 t) (iblk0 V c 7 t) (iblk0 V c 8 t) (iblk0 V c 9 t) y).trans ?_
  refine atom_blocks V c t _ ?_ _ _ ?_
  · have hy : (y 0).val < 1 := (y 0).isLt
    show win0_11.index t (0 : Fin 3) * 1 + 1 * (y 0).val = t.val
    omega
  · show win0_11.index t (1 : Fin 3) * 512 + 1 * (y 1).val = (y 1).val
    omega

/-- An index of the charge array is in point `t`'s block iff each coordinate is in the block's range on its axis. -/
private theorem charge_mem (t : Fin cfg0.N) (i : S32x512x1.Idx) :
    i ∈ ((cfg0.win 11).blk t).view.set ↔ ∀ a : Fin 3, win0_11.index t a * S1x512x1.size a ≤ (i a).val ∧ (i a).val < win0_11.index t a * S1x512x1.size a + S1x512x1.size a := by
  show i ∈ ((View.whole main_v1_1).slice (win0_11.rect t)).set ↔ _
  rw [View.set_slice_whole, Rect.mem_set_unit]
  exact Iff.rfl

/-- Batch item `b`'s charges are written back by point `b`. -/
private theorem charge_cover (i : S32x512x1.Idx) :
    ∃ t : Fin cfg0.N, (cfg0.win 11).flush t = true ∧ i ∈ ((cfg0.win 11).blk t).view.set := by
  have hi0 : (i 0).val < 32 := (i 0).isLt
  have hi1 : (i 1).val < 512 := (i 1).isLt
  have hi2 : (i 2).val < 1 := (i 2).isLt
  have hN : cfg0.N = 32 := N_0
  let t : Fin cfg0.N := ⟨(i 0).val, by omega⟩
  obtain ⟨-, -, -, -, -, -, -, -, -, e0, e1, e2⟩ := item_windows t
  have ht : t.val = (i 0).val := rfl
  refine ⟨t, flush0_11 t, ?_⟩
  rw [charge_mem]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 1 ≤ (i 2).val ∧ (i 2).val < win0_11.index t (2 : Fin 3) * 1 + 1; omega

/-- After the first region the charge array holds, at (item, atom), the charge network's output. -/
theorem charge_array (c : Dev nD) :
    (dat0 (F := Ideal) V c).arrAt 11 cfg0.N
      = fun i => atom (cur3 (V c main_arg0) (i 0)) (cur2 (V c main_arg7)) (cur1 (V c main_arg8))
          (col (V c main_arg9)) (one1 (V c main_arg10)) (i 1) :=
  (dat0 (F := Ideal) V c).arrAt_eq_of_cover 11 (chargeFn V c) (fun t _ => charge_flushed V c t) charge_cover

end Cert.KernelIdeal.MlpArray

end
-- ==== Proof.CoulombBody.lean ====
import proofs.«178759_j2774548873945_1_alg».proof.Proof.Gen.KernelIdeal.Skeleton
import proofs.«178759_j2774548873945_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CoulombBody

open Cert.KernelIdeal Cert.KernelIdeal.Gen Idealize.ShloMosaic Idealize.ShloMosaic.ValueIdx Cert.Spec

/-! ## Layout operations of the body read at explicit coordinates -/

/-- A column [512,1] spread over the columns of a [512,512] matrix: at (i, j) the column's entry i. -/
private theorem bcol_apply (v : FVec Ideal S512x1 .f32) (i j : Fin 512) :
    broadcastTo S512x512 v broadcasts_S512x1_S512x512 (ix2 i j) = v (ix2 i 0) := by
  refine broadcastTo_apply v broadcasts_S512x1_S512x512 (ix2 i j) (ix2 i 0) fun ax => ?_
  match ax with
  | ⟨0, _⟩ =>
    show i.val = if (512 : ℕ) = 1 then 0 else i.val
    rw [if_neg (by decide)]
  | ⟨1, _⟩ => rfl

/-- The column transposed to a row and spread over the rows: at (i, j) the column's entry j. -/
private theorem brow_apply (v : FVec Ideal S512x1 .f32) (i j : Fin 512) :
    broadcastTo S512x512 (transpose S1x512 [1, 0] v transposes_S512x1_p1_0_S1x512) broadcasts_S1x512_S512x512 (ix2 i j)
      = v (ix2 j 0) :=
  (broadcastTo_1b_ab_apply _ broadcasts_S1x512_S512x512 i j).trans
    (transpose_ix2_apply v transposes_S512x1_p1_0_S1x512 0 j)

/-- A column [512,1] as the matrix whose every column it is, and as the matrix whose every row it is. -/
private def colOf (v : FVec Ideal S512x1 .f32) : FVec Ideal S512x512 .f32 :=
  broadcastTo S512x512 v broadcasts_S512x1_S512x512
private def rowOf (v : FVec Ideal S512x1 .f32) : FVec Ideal S512x512 .f32 :=
  broadcastTo S512x512 (transpose S1x512 [1, 0] v transposes_S512x1_p1_0_S1x512) broadcasts_S1x512_S512x512

private theorem colOf_apply (v : FVec Ideal S512x1 .f32) (i j : Fin 512) : colOf v (ix2 i j) = v (ix2 i 0) :=
  bcol_apply v i j
private theorem rowOf_apply (v : FVec Ideal S512x1 .f32) (i j : Fin 512) : rowOf v (ix2 i j) = v (ix2 j 0) :=
  brow_apply v i j

/-- The three coordinate columns of the position block viewed [512,3]. -/
private def pc0 (x0 : Vec Ideal S1x512x3 .f32) : FVec Ideal S512x1 .f32 :=
  extractStridedSlice S512x1 ![0, 0] (shapeCast S512x3 x0 shapeCasts_S1x512x3_S512x3) slices_S512x3_o0_0_S512x1
private def pc1 (x0 : Vec Ideal S1x512x3 .f32) : FVec Ideal S512x1 .f32 :=
  extractStridedSlice S512x1 ![0, 1] (shapeCast S512x3 x0 shapeCasts_S1x512x3_S512x3) slices_S512x3_o0_1_S512x1
private def pc2 (x0 : Vec Ideal S1x512x3 .f32) : FVec Ideal S512x1 .f32 :=
  extractStridedSlice S512x1 ![0, 2] (shapeCast S512x3 x0 shapeCasts_S1x512x3_S512x3) slices_S512x3_o0_2_S512x1

private theorem pc0_apply (x0 : Vec Ideal S1x512x3 .f32) (n : Fin 512) : pc0 x0 (ix2 n 0) = x0 (ix3 0 n 0) :=
  (slice2_axis1_apply 0 _ slices_S512x3_o0_0_S512x1 n 0 (0 : Fin 3) rfl).trans
    (shapeCast_1ab_ab_apply x0 shapeCasts_S1x512x3_S512x3 n 0)
private theorem pc1_apply (x0 : Vec Ideal S1x512x3 .f32) (n : Fin 512) : pc1 x0 (ix2 n 0) = x0 (ix3 0 n 1) :=
  (slice2_axis1_apply 1 _ slices_S512x3_o0_1_S512x1 n 0 (1 : Fin 3) rfl).trans
    (shapeCast_1ab_ab_apply x0 shapeCasts_S1x512x3_S512x3 n 1)
private theorem pc2_apply (x0 : Vec Ideal S1x512x3 .f32) (n : Fin 512) : pc2 x0 (ix2 n 0) = x0 (ix3 0 n 2) :=
  (slice2_axis1_apply 2 _ slices_S512x3_o0_2_S512x1 n 0 (2 : Fin 3) rfl).trans
    (shapeCast_1ab_ab_apply x0 shapeCasts_S1x512x3_S512x3 n 2)

/-- The squared distances in their Gram form, as the body builds them from three columns. -/
private def gramMat (c0 c1 c2 : FVec Ideal S512x1 .f32) : FVec Ideal S512x512 .f32 :=
  subf
    (addf (colOf (addf (addf (mulf c0 c0) (mulf c1 c1)) (mulf c2 c2)))
      (rowOf (addf (addf (mulf c0 c0) (mulf c1 c1)) (mulf c2 c2))))
    (mulf (broadcast S512x512 twow)
      (addf (addf (mulf (colOf c0) (rowOf c0)) (mulf (colOf c1) (rowOf c1))) (mulf (colOf c2) (rowOf c2))))

private theorem gramMat_apply (c0 c1 c2 : FVec Ideal S512x1 .f32) (i j : Fin 512) :
    gramMat c0 c1 c2 (ix2 i j)
      = ((c0 (ix2 i 0) * c0 (ix2 i 0) + c1 (ix2 i 0) * c1 (ix2 i 0) + c2 (ix2 i 0) * c2 (ix2 i 0))
          + (c0 (ix2 j 0) * c0 (ix2 j 0) + c1 (ix2 j 0) * c1 (ix2 j 0) + c2 (ix2 j 0) * c2 (ix2 j 0)))
        - twow * ((c0 (ix2 i 0) * c0 (ix2 j 0) + c1 (ix2 i 0) * c1 (ix2 j 0)) + c2 (ix2 i 0) * c2 (ix2 j 0)) := by
  unfold gramMat
  simp only [subf_apply, addf_apply, mulf_apply, broadcast_apply, colOf_apply, rowOf_apply]

/-- The safe square root with the zero spelt as its word. -/
private theorem dist_word (d : EReal) :
    Scalar.select (Ideal.cmp .ogt d (Ideal.ofBits .f32 0x00000000#32))
        (Ideal.sqrt (Scalar.select (Ideal.cmp .ogt d (Ideal.ofBits .f32 0x00000000#32)) d onew))
        (Ideal.ofBits .f32 0x00000000#32)
      = dist d := by
  rw [Ideal.ofBits_zero_f32]; rfl

/-- The distance matrix at (i, j). -/
private theorem pay4_apply (x0 : Vec Ideal S1x512x3 .f32) (i j : Fin 512) :
    k1_pay4 (F := Ideal) x0 (ix2 i j) = dist (d2Gram (cur3 x0 0) i j) := by
  refine (dist_word (gramMat (pc0 x0) (pc1 x0) (pc2 x0) (ix2 i j))).trans ?_
  rw [gramMat_apply, pc0_apply, pc0_apply, pc1_apply, pc1_apply, pc2_apply, pc2_apply]
  rfl

/-! ## The pair term of the body at (i, j) -/

/-- [i = j] as the body builds it: the two position counters compared, widened, read as a number. -/
private def eyeMat : FVec Ideal S512x512 .f32 :=
  sitofp .f32 (extui 32 (cmpi .eq (iota .tc S512x512 32 [0] iota_S512x512_d0_w32)
    (iota .tc S512x512 32 [1] iota_S512x512_d1_w32)) natLt_1_32)

private theorem eyeMat_apply (i j : Fin 512) : eyeMat (ix2 i j) = eye i j := by
  show ((((IntOp.cmpi .eq (iota .tc S512x512 32 [0] iota_S512x512_d0_w32 (ix2 i j))
    (iota .tc S512x512 32 [1] iota_S512x512_d1_w32 (ix2 i j))).setWidth 32).toInt : ℝ) : EReal) = _
  rw [iota_single_apply, iota_single_apply]
  exact toInt_setWidth_bit _

/-- 1 where both atoms are real and distinct, as the body builds it from the mask column. -/
private def keepMat (m : FVec Ideal S512x1 .f32) : FVec Ideal S512x512 .f32 :=
  sitofp .f32 (extui 32 (cmpf .one (mulf (mulf (colOf m) (rowOf m)) (subf (broadcast S512x512 onew) eyeMat))
    (broadcast S512x512 (Ideal.ofBits .f32 0x00000000#32))) natLt_1_32)

private theorem keepMat_apply (m : FVec Ideal S512x1 .f32) (i j : Fin 512) :
    keepMat m (ix2 i j) = bitR (Ideal.cmp .une ((m (ix2 j 0) * m (ix2 i 0)) * (onew - eye i j)) 0) := by
  show ((((Ideal.cmp .one ((colOf m (ix2 i j) * rowOf m (ix2 i j)) * (onew - eyeMat (ix2 i j)))
    (Ideal.ofBits .f32 0x00000000#32)).setWidth 32).toInt : ℝ) : EReal) = _
  rw [toInt_setWidth_bit, colOf_apply, rowOf_apply, eyeMat_apply, Ideal.ofBits_zero_f32, mul_comm (m (ix2 i 0)), cmp_one_eq_une]

/-- The matrix of pair terms, from the mask column, the charge column and the distance matrix. -/
private def pairMat (m q : FVec Ideal S512x1 .f32) (D : FVec Ideal S512x512 .f32) : FVec Ideal S512x512 .f32 :=
  mulf (mulf (mulf (rowOf q)
    (divf (broadcast S512x512 onew)
      (mulf (addf (broadcast S512x512 epsw) (mulf D (keepMat m))) (addf (broadcast S512x512 epsw) (mulf D (keepMat m))))))
    (colOf q)) (keepMat m)

private theorem pairMat_apply (m q : FVec Ideal S512x1 .f32) (D : FVec Ideal S512x512 .f32) (i j : Fin 512) :
    pairMat m q D (ix2 i j)
      = ((q (ix2 j 0) * Ideal.div onew ((epsw + D (ix2 i j) * keepMat m (ix2 i j)) * (epsw + D (ix2 i j) * keepMat m (ix2 i j))))
          * q (ix2 i 0)) * keepMat m (ix2 i j) := by
  unfold pairMat
  simp only [mulf_apply, addf_apply, divf_apply, broadcast_apply, colOf_apply, rowOf_apply]

/-! ## The two sums and the casts around them -/

/-- The row sums of a [512,512] matrix: at i the sum over j of its entries (i, j). -/
private theorem rowSum_apply (M : FVec Ideal S512x512 .f32) (i : Fin 512) :
    multiReduction .add [1] S512 M 0x00000000#32 reduces_S512x512_S512 (.inl rfl) rfl (ix1 i)
      = ∑ j : Fin 512, M (ix2 i j) := by
  refine (Ideal.multiReduction_add_single M 0x00000000#32 reduces_S512x512_S512 (.inl rfl) rfl (ix1 i)).trans ?_
  show ∑ k : Fin 512, M (reduces_S512x512_S512.lift (ix1 i) k) = _
  refine Finset.sum_congr rfl fun k _ => congrArg M ?_
  funext d
  match d with
  | ⟨0, _⟩ => rfl
  | ⟨1, _⟩ => rfl

/-- The sum of a column [512,1]: at its one index the sum over i of its entries (i, 0). -/
private theorem colSum_apply (C : FVec Ideal S512x1 .f32) :
    multiReduction .add [0] S1 C 0x00000000#32 reduces_S512x1_S1 (.inl rfl) rfl (ix1 0)
      = ∑ i : Fin 512, C (ix2 i 0) := by
  refine (Ideal.multiReduction_add_single C 0x00000000#32 reduces_S512x1_S1 (.inl rfl) rfl (ix1 0)).trans ?_
  show ∑ k : Fin 512, C (reduces_S512x1_S1.lift (ix1 0) k) = _
  refine Finset.sum_congr rfl fun k _ => congrArg C ?_
  funext d
  match d with
  | ⟨0, _⟩ => rfl
  | ⟨1, _⟩ => rfl

/-- A vector [512] viewed as a column [512,1]. -/
private theorem asCol_apply (R : FVec Ideal S512 .f32) (i : Fin 512) :
    shapeCast S512x1 R shapeCasts_S512_S512x1 (ix2 i 0) = R (ix1 i) :=
  shapeCast_apply R shapeCasts_S512_S512x1 _ _ (by
    rw [Shape.rowMajor_val_one, Shape.rowMajor_val_two]
    show i.val = i.val * 1 + 0
    omega)

/-- What the body stores, from the mask column, the charge column and the distance matrix: the sum of all pair terms. -/
private def total (m q : FVec Ideal S512x1 .f32) (D : FVec Ideal S512x512 .f32) : FVec Ideal S1x1x1 .f32 :=
  shapeCast S1x1x1
    (shapeCast S1x1
      (multiReduction .add [0] S1
        (shapeCast S512x1
          (multiReduction .add [1] S512 (pairMat m q D) 0x00000000#32 reduces_S512x512_S512 (.inl rfl) rfl)
          shapeCasts_S512_S512x1)
        0x00000000#32 reduces_S512x1_S1 (.inl rfl) rfl)
      shapeCasts_S1_S1x1)
    shapeCasts_S1x1_S1x1x1

private theorem total_apply (m q : FVec Ideal S512x1 .f32) (D : FVec Ideal S512x512 .f32) (y : S1x1x1.Idx) :
    total m q D y = ∑ i : Fin 512, ∑ j : Fin 512, pairMat m q D (ix2 i j) := by
  obtain ⟨u, a, b, rfl⟩ : ∃ (u a b : Fin 1), y = ix3 u a b := ⟨y 0, y 1, y 2, eq_ix3 y⟩
  obtain rfl : a = 0 := Subsingleton.elim _ _
  obtain rfl : b = 0 := Subsingleton.elim _ _
  unfold total
  refine (shapeCast_ab_1ab_apply _ shapeCasts_S1x1_S1x1x1 u 0 0).trans ?_
  refine (shapeCast_a_1a_apply _ shapeCasts_S1_S1x1 0 0).trans ?_
  refine (colSum_apply _).trans ?_
  refine Finset.sum_congr rfl fun i _ => ?_
  exact (asCol_apply _ i).trans (rowSum_apply _ i)

/-- The body's stored value is that total, by unfolding the operations in their order. -/
private theorem pay1_eq_total (m q : FVec Ideal S512x1 .f32) (D : FVec Ideal S512x512 .f32) :
    k1_pay1 (F := Ideal) m q D (iota .tc S512x512 32 [0] iota_S512x512_d0_w32) = total m q D := rfl

/-- The mask / charge block [1,512,1] viewed [512,1]: at (n, 0) the block's entry (0, n, 0). -/
private theorem pay2_apply (x1 : Vec Ideal S1x512x1 .f32) (n : Fin 512) : k1_pay2 (F := Ideal) x1 (ix2 n 0) = x1 (ix3 0 n 0) :=
  shapeCast_1ab_ab_apply x1 shapeCasts_S1x512x1_S512x1 n 0
private theorem pay3_apply (x2 : Vec Ideal S1x512x1 .f32) (n : Fin 512) : k1_pay3 (F := Ideal) x2 (ix2 n 0) = x2 (ix3 0 n 0) :=
  shapeCast_1ab_ab_apply x2 shapeCasts_S1x512x1_S512x1 n 0

/-- What the second kernel stores in its one-element block, from the blocks it loads (positions `x0`, mask `x1`,
    charges `x2`): the item's Coulomb energy with the squared distance in its Gram form. -/
theorem coulomb_block (x0 : Vec Ideal S1x512x3 .f32) (x1 : Vec Ideal S1x512x1 .f32) (x2 : Vec Ideal S1x512x1 .f32) (y : S1x1x1.Idx) :
    k1_pay1 (F := Ideal) (k1_pay2 x1) (k1_pay3 x2) (k1_pay4 x0) (iota .tc S512x512 32 [0] iota_S512x512_d0_w32) y
      = coulomb (d2Gram (cur3 x0 0)) (col3 x1 0) (col3 x2 0) := by
  rw [pay1_eq_total, total_apply]
  unfold coulomb
  refine Finset.sum_congr rfl fun i _ => Finset.sum_congr rfl fun j _ => ?_
  rw [pairMat_apply, keepMat_apply, pay4_apply, pay2_apply, pay2_apply, pay3_apply, pay3_apply]
  rfl

end Cert.KernelIdeal.CoulombBody

end
-- ==== Proof.CoulombArray.lean ====
import proofs.«178759_j2774548873945_1_alg».proof.Proof.Gen.KernelIdeal.Frame
import proofs.«178759_j2774548873945_1_alg».proof.Proof.CoulombBody

noncomputable section

namespace Cert.KernelIdeal.CoulombArray

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-! ## The zero offsets of a whole-block access -/

private theorem zero3 : (![0, 0, 0] : Fin 3 → Nat) = fun _ => 0 := funext fun a => by fin_cases a <;> rfl

/-! ## The windows' index maps over the grid

  Grid point `t` is batch item `t`: every window sits at block (t, 0, 0). -/

private theorem item_windows : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-! ## Each input block, read off its array -/

/-- The positions' block at point `t` is item `t`'s slab of the array. -/
private theorem pos_block (c : Dev nD) (t : Fin cfg1.N) (b : Fin 32) (hb : b.val = t.val) (n : Fin 512) (k : Fin 3) :
    (iblk1 V c 0 t : Vec Ideal S1x512x3 .f32) (ix3 0 n k) = (V c main_arg1 : S32x512x3.Idx → EReal) (ix3 b n k) := by
  obtain ⟨e0, e1, e2, -⟩ := item_windows t
  show V c main_arg1 (((cfg1.win 0).blk t).view.emb (ix3 0 n k)) = V c main_arg1 (ix3 b n k)
  refine congrArg _ ?_
  funext a; apply Fin.ext
  match a with
  | ⟨0, _⟩ => show win1_0.index t (0 : Fin 3) * 1 + 1 * 0 = b.val; omega
  | ⟨1, _⟩ => show win1_0.index t (1 : Fin 3) * 512 + 1 * n.val = n.val; omega
  | ⟨2, _⟩ => show win1_0.index t (2 : Fin 3) * 3 + 1 * k.val = k.val; omega

/-- The mask's block at point `t` is item `t`'s column of the array. -/
private theorem mask_block (c : Dev nD) (t : Fin cfg1.N) (b : Fin 32) (hb : b.val = t.val) (n : Fin 512) :
    (iblk1 V c 1 t : Vec Ideal S1x512x1 .f32) (ix3 0 n 0) = (V c main_v0 : S32x512x1.Idx → EReal) (ix3 b n 0) := by
  obtain ⟨-, -, -, e0, e1, e2, -⟩ := item_windows t
  show V c main_v0 (((cfg1.win 1).blk t).view.emb (ix3 0 n 0)) = V c main_v0 (ix3 b n 0)
  refine congrArg _ ?_
  funext a; apply Fin.ext
  match a with
  | ⟨0, _⟩ => show win1_1.index t (0 : Fin 3) * 1 + 1 * 0 = b.val; omega
  | ⟨1, _⟩ => show win1_1.index t (1 : Fin 3) * 512 + 1 * n.val = n.val; omega
  | ⟨2, _⟩ => show win1_1.index t (2 : Fin 3) * 1 + 1 * 0 = 0; omega

/-- The charges' block at point `t` is item `t`'s column of the array. -/
private theorem charge_block (c : Dev nD) (t : Fin cfg1.N) (b : Fin 32) (hb : b.val = t.val) (n : Fin 512) :
    (iblk1 V c 2 t : Vec Ideal S1x512x1 .f32) (ix3 0 n 0) = (V c main_v1_1 : S32x512x1.Idx → EReal) (ix3 b n 0) := by
  obtain ⟨-, -, -, -, -, -, e0, e1, e2, -⟩ := item_windows t
  show V c main_v1_1 (((cfg1.win 2).blk t).view.emb (ix3 0 n 0)) = V c main_v1_1 (ix3 b n 0)
  refine congrArg _ ?_
  funext a; apply Fin.ext
  match a with
  | ⟨0, _⟩ => show win1_2.index t (0 : Fin 3) * 1 + 1 * 0 = b.val; omega
  | ⟨1, _⟩ => show win1_2.index t (1 : Fin 3) * 512 + 1 * n.val = n.val; omega
  | ⟨2, _⟩ => show win1_2.index t (2 : Fin 3) * 1 + 1 * 0 = 0; omega

/-! ## The Coulomb array -/

/-- The array's closed form: at batch item `i 0` the item's Coulomb energy. -/
private abbrev coulombFn (c : Dev nD) : S32x1x1.Idx → EReal :=
  fun i => coulomb (d2Gram (cur3 (V c main_arg1) (i 0))) (col3 (V c main_v0) (i 0)) (col3 (V c main_v1_1) (i 0))

/-- The Coulomb energy of the blocks at point `t` is the Coulomb energy of item `b = t` of the arrays. -/
private theorem coulomb_blocks (c : Dev nD) (t : Fin cfg1.N) (b : Fin 32) (hb : b.val = t.val) :
    coulomb (d2Gram (cur3 (iblk1 V c 0 t : Vec Ideal S1x512x3 .f32) 0)) (col3 (iblk1 V c 1 t : Vec Ideal S1x512x1 .f32) 0)
        (col3 (iblk1 V c 2 t : Vec Ideal S1x512x1 .f32) 0)
      = coulomb (d2Gram (cur3 (V c main_arg1 : S32x512x3.Idx → EReal) b)) (col3 (V c main_v0 : S32x512x1.Idx → EReal) b)
          (col3 (V c main_v1_1 : S32x512x1.Idx → EReal) b) := by
  have h0 : cur3 (iblk1 V c 0 t : Vec Ideal S1x512x3 .f32) 0 = cur3 (V c main_arg1 : S32x512x3.Idx → EReal) b :=
    funext fun n => funext fun k => pos_block V c t b hb n k
  have h1 : col3 (iblk1 V c 1 t : Vec Ideal S1x512x1 .f32) 0 = col3 (V c main_v0 : S32x512x1.Idx → EReal) b :=
    funext fun n => mask_block V c t b hb n
  have h2 : col3 (iblk1 V c 2 t : Vec Ideal S1x512x1 .f32) 0 = col3 (V c main_v1_1 : S32x512x1.Idx → EReal) b :=
    funext fun n => charge_block V c t b hb n
  rw [h0, h1, h2]

/-- What point `t` writes back is block `t` of the closed form. -/
private theorem coulomb_flushed (c : Dev nD) (t : Fin cfg1.N) :
    (dat1 (F := Ideal) V c).flushed 3 t = ((cfg1.win 3).blk t).view.read (Elt Ideal) (coulombFn V c) := by
  show (cfg1.win 3).cut (grid1.coords t) ((dat1 (F := Ideal) V c).after 3 t) = _
  rw [after1_3]
  unfold out1_3
  rw [View.canon_unit_zero zero3]
  simp only [View.ld_unit_zero (S := S1x512x3) zero3, View.ld_unit_zero (S := S1x512x1) zero3]
  funext y
  obtain ⟨-, -, -, -, -, -, -, -, -, e0, e1, e2⟩ := item_windows t
  show k1_pay1 (F := Ideal) (k1_pay2 (iblk1 V c 1 t)) (k1_pay3 (iblk1 V c 2 t)) (k1_pay4 (iblk1 V c 0 t))
      (iota .tc S512x512 32 [0] iota_S512x512_d0_w32) y
    = coulombFn V c (((cfg1.win 3).blk t).view.emb y)
  refine (CoulombBody.coulomb_block (iblk1 V c 0 t) (iblk1 V c 1 t) (iblk1 V c 2 t) y).trans ?_
  refine coulomb_blocks V c t _ ?_
  have hy : (y 0).val < 1 := (y 0).isLt
  show win1_3.index t (0 : Fin 3) * 1 + 1 * (y 0).val = t.val
  omega

/-- An index of the array is in point `t`'s block iff each coordinate is in the block's range on its axis. -/
private theorem coulomb_mem (t : Fin cfg1.N) (i : S32x1x1.Idx) :
    i ∈ ((cfg1.win 3).blk t).view.set ↔ ∀ a : Fin 3, win1_3.index t a * S1x1x1.size a ≤ (i a).val ∧ (i a).val < win1_3.index t a * S1x1x1.size a + S1x1x1.size a := by
  show i ∈ ((View.whole main_v2).slice (win1_3.rect t)).set ↔ _
  rw [View.set_slice_whole, Rect.mem_set_unit]
  exact Iff.rfl

/-- Batch item `b` is written back by point `b`. -/
private theorem coulomb_cover (i : S32x1x1.Idx) :
    ∃ t : Fin cfg1.N, (cfg1.win 3).flush t = true ∧ i ∈ ((cfg1.win 3).blk t).view.set := by
  have hi0 : (i 0).val < 32 := (i 0).isLt
  have hi1 : (i 1).val < 1 := (i 1).isLt
  have hi2 : (i 2).val < 1 := (i 2).isLt
  have hN : cfg1.N = 32 := N_1
  let t : Fin cfg1.N := ⟨(i 0).val, by omega⟩
  obtain ⟨-, -, -, -, -, -, -, -, -, e0, e1, e2⟩ := item_windows t
  have ht : t.val = (i 0).val := rfl
  refine ⟨t, flush1_3 t, ?_⟩
  rw [coulomb_mem]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 1 ≤ (i 2).val ∧ (i 2).val < win1_3.index t (2 : Fin 3) * 1 + 1; omega

/-- After the second region its output array holds, at batch item `i 0`, the item's Coulomb energy of the arrays the
    region was entered with (positions, the mask with its unit axis, the charges). -/
theorem coulomb_array (c : Dev nD) :
    (dat1 (F := Ideal) V c).arrAt 3 cfg1.N
      = fun i => coulomb (d2Gram (cur3 (V c main_arg1) (i 0))) (col3 (V c main_v0) (i 0)) (col3 (V c main_v1_1) (i 0)) :=
  (dat1 (F := Ideal) V c).arrAt_eq_of_cover 3 (coulombFn V c) (fun t _ => coulomb_flushed V c t) coulomb_cover

end Cert.KernelIdeal.CoulombArray

end
-- ==== Proof.KernelValue.lean ====
import proofs.«178759_j2774548873945_1_alg».proof.Proof.Gen.KernelIdeal.Frame
import proofs.«178759_j2774548873945_1_alg».proof.Proof.MlpArray
import proofs.«178759_j2774548873945_1_alg».proof.Proof.CoulombArray
import Idealize.ShloMosaic.Lib.StableHlo.Run
import Idealize.ShloMosaic.Lib.Pipeline.Value

noncomputable section

/-!
  The idealized kernel program's result buffer, read through the run's boundaries: the closing host operations add
  the first region's energy array and the second region's Coulomb array (each [32,1,1] viewed [32,1]); the second
  region was entered with the positions as launched, the mask with its unit axis as the opening broadcast left it,
  and the charges as the first region left them; the first region was entered with the arguments as launched.
-/

namespace Cert.KernelIdeal.KernelValue

open Cert.KernelIdeal Cert.KernelIdeal.Gen Idealize.ShloMosaic Idealize.ShloMosaic.TcCoe Idealize.ShloMosaic.ValueIdx Idealize.SL.Sem Cert.Spec
open Idealize.ShloMosaic.StableHlo

variable (m : (ℓ : Loc nD τ sig) → Buf (Elt Ideal) ℓ) (ρ : Dev nD → PrngReg)

/-! ## The first region's entry: the arguments as launched, the mask broadcast to a trailing unit axis -/

theorem entry0_arg0 (c : Dev nD) : V1 (F := Ideal) m ρ c main_arg0 = m ((c : Thread nD τ).loc main_arg0) := by
  show StableHlo.after hostOps0 (W0 m ρ c) (Proc.devRef .tc main_arg0) = _
  after_results
theorem entry0_arg1 (c : Dev nD) : V1 (F := Ideal) m ρ c main_arg1 = m ((c : Thread nD τ).loc main_arg1) := by
  show StableHlo.after hostOps0 (W0 m ρ c) (Proc.devRef .tc main_arg1) = _
  after_results
theorem entry0_arg3 (c : Dev nD) : V1 (F := Ideal) m ρ c main_arg3 = m ((c : Thread nD τ).loc main_arg3) := by
  show StableHlo.after hostOps0 (W0 m ρ c) (Proc.devRef .tc main_arg3) = _
  after_results
theorem entry0_arg4 (c : Dev nD) : V1 (F := Ideal) m ρ c main_arg4 = m ((c : Thread nD τ).loc main_arg4) := by
  show StableHlo.after hostOps0 (W0 m ρ c) (Proc.devRef .tc main_arg4) = _
  after_results
theorem entry0_arg5 (c : Dev nD) : V1 (F := Ideal) m ρ c main_arg5 = m ((c : Thread nD τ).loc main_arg5) := by
  show StableHlo.after hostOps0 (W0 m ρ c) (Proc.devRef .tc main_arg5) = _
  after_results
theorem entry0_arg6 (c : Dev nD) : V1 (F := Ideal) m ρ c main_arg6 = m ((c : Thread nD τ).loc main_arg6) := by
  show StableHlo.after hostOps0 (W0 m ρ c) (Proc.devRef .tc main_arg6) = _
  after_results
theorem entry0_arg7 (c : Dev nD) : V1 (F := Ideal) m ρ c main_arg7 = m ((c : Thread nD τ).loc main_arg7) := by
  show StableHlo.after hostOps0 (W0 m ρ c) (Proc.devRef .tc main_arg7) = _
  after_results
theorem entry0_arg8 (c : Dev nD) : V1 (F := Ideal) m ρ c main_arg8 = m ((c : Thread nD τ).loc main_arg8) := by
  show StableHlo.after hostOps0 (W0 m ρ c) (Proc.devRef .tc main_arg8) = _
  after_results
theorem entry0_arg9 (c : Dev nD) : V1 (F := Ideal) m ρ c main_arg9 = m ((c : Thread nD τ).loc main_arg9) := by
  show StableHlo.after hostOps0 (W0 m ρ c) (Proc.devRef .tc main_arg9) = _
  after_results
theorem entry0_arg10 (c : Dev nD) : V1 (F := Ideal) m ρ c main_arg10 = m ((c : Thread nD τ).loc main_arg10) := by
  show StableHlo.after hostOps0 (W0 m ρ c) (Proc.devRef .tc main_arg10) = _
  after_results

/-- The mask as the regions read it: the argument broadcast to a trailing unit axis. -/
theorem entry0_mask (c : Dev nD) :
    (V1 (F := Ideal) m ρ c main_v0 : S32x512x1.Idx → EReal)
      = broadcastInDim S32x512x1 ![0, 1] bcast_S32x512_S32x512x1_0_1 (m ((c : Thread nD τ).loc main_arg2)) := by
  show StableHlo.after hostOps0 (W0 m ρ c) (Proc.devRef .tc main_v0) = _
  after_results

/-- Read at (item, atom, 0) it is the mask at (item, atom). -/
theorem entry0_mask_col (c : Dev nD) (b : Fin 32) :
    col3 (V1 (F := Ideal) m ρ c main_v0 : S32x512x1.Idx → EReal) b = cur2 (m ((c : Thread nD τ).loc main_arg2)) b := by
  funext n
  show (V1 (F := Ideal) m ρ c main_v0 : S32x512x1.Idx → EReal) (ix3 b n 0) = _
  rw [entry0_mask]
  exact broadcastInDim_apply _ bcast_S32x512_S32x512x1_0_1 _ (ix3 b n 0) (ix2 b n) (fun a => match a with
    | ⟨0, _⟩ => by show b.val = if (32 : Nat) = 1 then 0 else b.val; rw [if_neg (by decide)]
    | ⟨1, _⟩ => by show n.val = if (512 : Nat) = 1 then 0 else n.val; rw [if_neg (by decide)])

/-! ## The second region's entry -/

/-- The positions: no operation and no region before it writes them. -/
theorem entry1_positions (c : Dev nD) : V2 (F := Ideal) m ρ c main_arg1 = m ((c : Thread nD τ).loc main_arg1) :=
  (W2_of_ne m ρ c main_arg1 (by decide)).trans (entry0_arg1 m ρ c)

/-- The mask: an input window of the first region, so left as that region found it. -/
theorem entry1_mask (c : Dev nD) : V2 (F := Ideal) m ρ c main_v0 = V1 (F := Ideal) m ρ c main_v0 :=
  (W2_arr m ρ c 1).trans (((dat0 (V1 m ρ) c).arrAt_in 1 rfl _).trans (A_eq0 (V1 m ρ) c 1))

/-- The charges: the first region's second output. -/
theorem entry1_charges (c : Dev nD) : V2 (F := Ideal) m ρ c main_v1_1 = (dat0 (V1 (F := Ideal) m ρ) c).arrAt 11 cfg0.N :=
  W2_arr m ρ c 11

/-! ## The result -/

/-- A [32,1,1] array viewed [32,1] reads (b, 0) at (b, 0, 0). -/
theorem view_apply (x : S32x1x1.Idx → EReal) (i : S32x1.Idx) :
    shapeCast S32x1 x shapeCasts_S32x1x1_S32x1 i = x (ix3 (i 0) 0 0) :=
  shapeCast_apply x shapeCasts_S32x1x1_S32x1 i (ix3 (i 0) 0 0) (by
    rw [Shape.rowMajor_val_three, Shape.rowMajor_val_two]
    have h1 : (i 1).val < 1 := (i 1).isLt
    show ((i 0).val * 1 + 0) * 1 + 0 = (i 0).val * 1 + (i 1).val
    omega)

/-- The result buffer's contents at the end of the run's fold: the specification's result, with the squared
    distance in its Gram form, of the argument arrays as launched. -/
theorem result_eq (c : Dev nD) :
    W4 (F := Ideal) m ρ c (Proc.devRef .tc main_v5)
      = result d2Gram (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  have e1 : W3 (F := Ideal) m ρ c (Proc.devRef .tc main_v1_0) = (dat0 (V1 (F := Ideal) m ρ) c).arrAt 10 cfg0.N :=
    (W3_of_ne m ρ c main_v1_0 (by decide)).trans (W2_arr m ρ c 10)
  have e2 : W3 (F := Ideal) m ρ c (Proc.devRef .tc main_v2) = (dat1 (V2 (F := Ideal) m ρ) c).arrAt 3 cfg1.N :=
    W3_arr m ρ c 3
  have tail : (W4 (F := Ideal) m ρ c (Proc.devRef .tc main_v5) : FVec Ideal S32x1 .f32)
      = (addf (shapeCast S32x1 ((dat0 (V1 (F := Ideal) m ρ) c).arrAt 10 cfg0.N : FVec Ideal S32x1x1 .f32) shapeCasts_S32x1x1_S32x1)
          (shapeCast S32x1 ((dat1 (V2 (F := Ideal) m ρ) c).arrAt 3 cfg1.N : FVec Ideal S32x1x1 .f32) shapeCasts_S32x1x1_S32x1) : FVec Ideal S32x1 .f32) := by
    show StableHlo.after hostOps2 (W3 m ρ c) (Proc.devRef .tc main_v5) = _
    after_results
    rw [e1, e2]
    rfl
  rw [tail]
  funext i
  obtain ⟨b, z, rfl⟩ : ∃ (b : Fin 32) (z : Fin 1), i = ix2 b z := ⟨i 0, i 1, eq_ix2 i⟩
  show shapeCast S32x1 _ shapeCasts_S32x1x1_S32x1 (ix2 b z) + shapeCast S32x1 _ shapeCasts_S32x1x1_S32x1 (ix2 b z) = _
  rw [view_apply, view_apply, MlpArray.energy_array (V1 (F := Ideal) m ρ) c, CoulombArray.coulomb_array (V2 (F := Ideal) m ρ) c]
  show pooled (cur3 (V1 (F := Ideal) m ρ c main_arg0) b) (col3 (V1 (F := Ideal) m ρ c main_v0) b) (cur2 (V1 (F := Ideal) m ρ c main_arg3))
        (cur1 (V1 (F := Ideal) m ρ c main_arg4)) (col (V1 (F := Ideal) m ρ c main_arg5)) (one1 (V1 (F := Ideal) m ρ c main_arg6))
      + coulomb (d2Gram (cur3 (V2 (F := Ideal) m ρ c main_arg1) b)) (col3 (V2 (F := Ideal) m ρ c main_v0) b)
          (col3 (V2 (F := Ideal) m ρ c main_v1_1) b) = _
  rw [entry1_positions, entry1_mask, entry1_charges, MlpArray.charge_array (V1 (F := Ideal) m ρ) c, entry0_mask_col m ρ c b,
    entry0_arg0, entry0_arg3, entry0_arg4, entry0_arg5, entry0_arg6, entry0_arg7, entry0_arg8, entry0_arg9, entry0_arg10]
  rfl

end Cert.KernelIdeal.KernelValue

end
-- ==== Proof.RefAtom.lean ====
import proofs.«178759_j2774548873945_1_alg».proof.Proof.Gen.ReferenceIdeal.Read
import proofs.«178759_j2774548873945_1_alg».proof.Proof.Spec
import Idealize.ShloMosaic.Lib.Pipeline.Value
import Idealize.ShloMosaic.Lib.ValueIdx
import Idealize.ShloMosaic.PureOps.Ideal.Laws

noncomputable section

namespace Cert.ReferenceIdeal.RefAtom

open Cert.ReferenceIdeal Cert.ReferenceIdeal.Gen Cert.ReferenceIdeal.Read Idealize.ShloMosaic Idealize.ShloMosaic.ValueIdx Cert.Spec

/-! ## Index equations at explicit coordinates -/

private theorem lidx_v0 (b : Fin 32) (n h : Fin 512) (k : Fin 1024) :
    lidx_main_v0 (ix3 b n h) k = ix3 b n k :=
  funext fun a => Fin.ext (by match a with | ⟨0, _⟩ => rfl | ⟨1, _⟩ => rfl | ⟨2, _⟩ => rfl)

private theorem ridx_v0 (b : Fin 32) (n h : Fin 512) (k : Fin 1024) :
    ridx_main_v0 (ix3 b n h) k = ix2 k h :=
  funext fun a => Fin.ext (by match a with | ⟨0, _⟩ => rfl | ⟨1, _⟩ => rfl)

private theorem idx_v1_v2 (b : Fin 32) (n h : Fin 512) :
    idx_main_v1 (idx_main_v2 (ix3 b n h)) = ix1 h :=
  funext fun a => Fin.ext (by match a with | ⟨0, _⟩ => rfl)

/-- The hidden layer of the energy network at (item, atom, unit). -/
private theorem hidden_energy (x0 : (⟨S32x512x1024, .f32⟩ : BufTy).Contents (Elt Ideal)) (x3 : (⟨S1024x512, .f32⟩ : BufTy).Contents (Elt Ideal)) (x4 : (⟨S512, .f32⟩ : BufTy).Contents (Elt Ideal))
    (b : Fin 32) (n h : Fin 512) :
    val_main_v6 (F := Ideal) x0 x3 x4 (ix3 b n h) = hidden (cur3 x0 b) (cur2 x3) (cur1 x4) n h := by
  simp only [val_main_v6_apply, val_main_v5_apply, val_main_cst_apply, val_main_v4_apply,
    val_main_call0_v4_apply, val_main_call0_v6_apply, val_main_call0_v11_apply, val_main_call0_v10_apply,
    val_main_call0_v9_apply, val_main_call0_v8_apply, val_main_call0_v7_apply, val_main_call0_v3_apply,
    val_main_call0_v1_apply, val_main_call0_v0_apply, val_main_call0_v2_apply, val_main_call0_v5_apply,
    val_main_call0_cst_apply, val_main_v3_apply, val_main_v2_apply, val_main_v1_apply, val_main_v0_apply,
    lidx_v0, ridx_v0, idx_v1_v2]
  simp only [Ideal.subf_def, Ideal.addf_def, Ideal.maximumf_def, Ideal.hostUnary_log1p_def, Ideal.hostUnary_exp_def,
    Ideal.hostNegf_def, Ideal.negf_def, Ideal.hostAbsf_def, Ideal.absf_def, Ideal.cmpf_def, Ideal.ofBits_def,
    Ideal.ofBits_zero_f32, sub_zero, add_zero, Spec.select_une_self]
  rfl

private theorem lidx_v7 (b : Fin 32) (n h : Fin 512) :
    lidx_main_v7 (ix3 b n (0 : Fin 1)) h = ix3 b n h :=
  funext fun a => Fin.ext (by match a with | ⟨0, _⟩ => rfl | ⟨1, _⟩ => rfl | ⟨2, _⟩ => rfl)

private theorem ridx_v7 (b : Fin 32) (n h : Fin 512) :
    ridx_main_v7 (ix3 b n (0 : Fin 1)) h = ix2 h (0 : Fin 1) :=
  funext fun a => Fin.ext (by match a with | ⟨0, _⟩ => rfl | ⟨1, _⟩ => rfl)

private theorem idx_v8_v9 (i : S32x512x1.Idx) : idx_main_v8 (idx_main_v9 i) = ix1 (0 : Fin 1) :=
  funext fun a => Fin.ext (by match a with | ⟨0, _⟩ => rfl)

/-- The reference's energy network at (item, atom). -/
theorem energy_atom (x0 : (⟨S32x512x1024, .f32⟩ : BufTy).Contents (Elt Ideal)) (x3 : (⟨S1024x512, .f32⟩ : BufTy).Contents (Elt Ideal)) (x4 : (⟨S512, .f32⟩ : BufTy).Contents (Elt Ideal)) (x5 : (⟨S512x1, .f32⟩ : BufTy).Contents (Elt Ideal)) (x6 : (⟨S1, .f32⟩ : BufTy).Contents (Elt Ideal))
    (b : Fin 32) (n : Fin 512) :
    val_main_v10 (F := Ideal) x0 x3 x4 x5 x6 (ix3 b n 0) = atom (cur3 x0 b) (cur2 x3) (cur1 x4) (col x5) (one1 x6) n := by
  rw [val_main_v10_apply, val_main_v9_apply, val_main_v8_apply, val_main_v7_apply, idx_v8_v9]
  simp only [lidx_v7, ridx_v7, hidden_energy, Ideal.addf_def]
  rfl

/-! ## The charge network: the same chain over the charge weights -/

private theorem lidx_v48 (b : Fin 32) (n h : Fin 512) (k : Fin 1024) :
    lidx_main_v48 (ix3 b n h) k = ix3 b n k :=
  funext fun a => Fin.ext (by match a with | ⟨0, _⟩ => rfl | ⟨1, _⟩ => rfl | ⟨2, _⟩ => rfl)

private theorem ridx_v48 (b : Fin 32) (n h : Fin 512) (k : Fin 1024) :
    ridx_main_v48 (ix3 b n h) k = ix2 k h :=
  funext fun a => Fin.ext (by match a with | ⟨0, _⟩ => rfl | ⟨1, _⟩ => rfl)

private theorem idx_v49_v50 (b : Fin 32) (n h : Fin 512) :
    idx_main_v49 (idx_main_v50 (ix3 b n h)) = ix1 h :=
  funext fun a => Fin.ext (by match a with | ⟨0, _⟩ => rfl)

/-- The hidden layer of the charge network at (item, atom, unit). -/
private theorem hidden_charge (x0 : (⟨S32x512x1024, .f32⟩ : BufTy).Contents (Elt Ideal)) (x7 : (⟨S1024x512, .f32⟩ : BufTy).Contents (Elt Ideal)) (x8 : (⟨S512, .f32⟩ : BufTy).Contents (Elt Ideal))
    (b : Fin 32) (n h : Fin 512) :
    val_main_v54 (F := Ideal) x0 x7 x8 (ix3 b n h) = hidden (cur3 x0 b) (cur2 x7) (cur1 x8) n h := by
  simp only [val_main_v54_apply, val_main_v53_apply, val_main_cst_8_apply, val_main_v52_apply,
    val_main_call3_v4_apply, val_main_call3_v6_apply, val_main_call3_v11_apply, val_main_call3_v10_apply,
    val_main_call3_v9_apply, val_main_call3_v8_apply, val_main_call3_v7_apply, val_main_call3_v3_apply,
    val_main_call3_v1_apply, val_main_call3_v0_apply, val_main_call3_v2_apply, val_main_call3_v5_apply,
    val_main_call3_cst_apply, val_main_v51_apply, val_main_v50_apply, val_main_v49_apply, val_main_v48_apply,
    lidx_v48, ridx_v48, idx_v49_v50]
  simp only [Ideal.subf_def, Ideal.addf_def, Ideal.maximumf_def, Ideal.hostUnary_log1p_def, Ideal.hostUnary_exp_def,
    Ideal.hostNegf_def, Ideal.negf_def, Ideal.hostAbsf_def, Ideal.absf_def, Ideal.cmpf_def, Ideal.ofBits_def,
    Ideal.ofBits_zero_f32, sub_zero, add_zero, Spec.select_une_self]
  rfl

private theorem lidx_v55 (b : Fin 32) (n h : Fin 512) :
    lidx_main_v55 (ix3 b n (0 : Fin 1)) h = ix3 b n h :=
  funext fun a => Fin.ext (by match a with | ⟨0, _⟩ => rfl | ⟨1, _⟩ => rfl | ⟨2, _⟩ => rfl)

private theorem ridx_v55 (b : Fin 32) (n h : Fin 512) :
    ridx_main_v55 (ix3 b n (0 : Fin 1)) h = ix2 h (0 : Fin 1) :=
  funext fun a => Fin.ext (by match a with | ⟨0, _⟩ => rfl | ⟨1, _⟩ => rfl)

private theorem idx_v56_v57 (i : S32x512x1.Idx) : idx_main_v56 (idx_main_v57 i) = ix1 (0 : Fin 1) :=
  funext fun a => Fin.ext (by match a with | ⟨0, _⟩ => rfl)

/-- The reference's charge network at (item, atom). -/
theorem charge_atom (x0 : (⟨S32x512x1024, .f32⟩ : BufTy).Contents (Elt Ideal)) (x7 : (⟨S1024x512, .f32⟩ : BufTy).Contents (Elt Ideal)) (x8 : (⟨S512, .f32⟩ : BufTy).Contents (Elt Ideal)) (x9 : (⟨S512x1, .f32⟩ : BufTy).Contents (Elt Ideal)) (x10 : (⟨S1, .f32⟩ : BufTy).Contents (Elt Ideal))
    (b : Fin 32) (n : Fin 512) :
    val_main_v58 (F := Ideal) x0 x7 x8 x9 x10 (ix3 b n 0) = atom (cur3 x0 b) (cur2 x7) (cur1 x8) (col x9) (one1 x10) n := by
  rw [val_main_v58_apply, val_main_v57_apply, val_main_v56_apply, val_main_v55_apply, idx_v56_v57]
  simp only [lidx_v55, ridx_v55, hidden_charge, Ideal.addf_def]
  rfl

/-! ## The masked sum over atoms -/

private theorem idx_v13 (p : Fin 32) (q : Fin 1) (n : Fin 512) :
    idx_main_v13 (ix2 p q) n = ix3 p n (0 : Fin 1) :=
  funext fun a => Fin.ext (by
    match a with
    | ⟨0, _⟩ => rfl
    | ⟨1, _⟩ => rfl
    | ⟨2, _⟩ => show q.val = 0; omega)

private theorem idx_v11 (b : Fin 32) (n : Fin 512) : idx_main_v11 (ix3 b n (0 : Fin 1)) = ix2 b n :=
  funext fun a => Fin.ext (by match a with | ⟨0, _⟩ => rfl | ⟨1, _⟩ => rfl)

/-- The reference's masked sum over an item's atoms. -/
theorem pooled_eq (x0 : (⟨S32x512x1024, .f32⟩ : BufTy).Contents (Elt Ideal)) (x2 : (⟨S32x512, .f32⟩ : BufTy).Contents (Elt Ideal)) (x3 : (⟨S1024x512, .f32⟩ : BufTy).Contents (Elt Ideal)) (x4 : (⟨S512, .f32⟩ : BufTy).Contents (Elt Ideal)) (x5 : (⟨S512x1, .f32⟩ : BufTy).Contents (Elt Ideal)) (x6 : (⟨S1, .f32⟩ : BufTy).Contents (Elt Ideal))
    (i : S32x1.Idx) :
    val_main_v13 (F := Ideal) x0 x2 x3 x4 x5 x6 i
      = pooled (cur3 x0 (i 0)) (cur2 x2 (i 0)) (cur2 x3) (cur1 x4) (col x5) (one1 x6) := by
  obtain ⟨p, q, rfl⟩ : ∃ (p : Fin 32) (q : Fin 1), i = ix2 p q := ⟨i 0, i 1, eq_ix2 i⟩
  show _ = pooled (cur3 x0 p) (cur2 x2 p) (cur2 x3) (cur1 x4) (col x5) (one1 x6)
  rw [val_main_v13_apply, val_main_cst_0_apply]
  simp only [idx_v13, val_main_v12_apply, val_main_v11_apply, idx_v11, energy_atom, Ideal.mulf_def,
    Ideal.ofBits_def, Ideal.ofBits_zero_f32, zero_add]
  rfl

end Cert.ReferenceIdeal.RefAtom

end
-- ==== Proof.RefPair.lean ====
import proofs.«178759_j2774548873945_1_alg».proof.Proof.Gen.ReferenceIdeal.Read
import proofs.«178759_j2774548873945_1_alg».proof.Proof.Spec
import Idealize.ShloMosaic.Lib.Pipeline.Value
import Idealize.ShloMosaic.Lib.ValueIdx
import Idealize.ShloMosaic.PureOps.Ideal.Laws

noncomputable section

namespace Cert.ReferenceIdeal.RefPair

open Cert.ReferenceIdeal Cert.ReferenceIdeal.Gen Cert.ReferenceIdeal.Read Idealize.ShloMosaic Idealize.ShloMosaic.ValueIdx Cert.Spec

/-! ## Where each broadcast reads its operand, at explicit coordinates -/

/-- The first position operand at (item, i, j, k) is the position of atom j. -/
private theorem idx_pos_j (b : Fin 32) (i j : Fin 512) (k : Fin 3) :
    idx_main_v14 (idx_main_v16 (idx_main_v20 (ix3 b i j) k)) = ix3 b j k :=
  funext fun a => Fin.ext (by match a with | ⟨0, _⟩ => rfl | ⟨1, _⟩ => rfl | ⟨2, _⟩ => rfl)

/-- The second position operand at (item, i, j, k) is the position of atom i. -/
private theorem idx_pos_i (b : Fin 32) (i j : Fin 512) (k : Fin 3) :
    idx_main_v15 (idx_main_v17 (idx_main_v20 (ix3 b i j) k)) = ix3 b i k :=
  funext fun a => Fin.ext (by match a with | ⟨0, _⟩ => rfl | ⟨1, _⟩ => rfl | ⟨2, _⟩ => rfl)

/-- The first mask operand at (item, i, j) is the mask of atom j. -/
private theorem idx_mask_j (b : Fin 32) (i j : Fin 512) :
    idx_main_v34 (idx_main_v36 (ix3 b i j)) = ix2 b j :=
  funext fun a => Fin.ext (by match a with | ⟨0, _⟩ => rfl | ⟨1, _⟩ => rfl)

/-- The second mask operand at (item, i, j) is the mask of atom i. -/
private theorem idx_mask_i (b : Fin 32) (i j : Fin 512) :
    idx_main_v35 (idx_main_v37 (ix3 b i j)) = ix2 b i :=
  funext fun a => Fin.ext (by match a with | ⟨0, _⟩ => rfl | ⟨1, _⟩ => rfl)

/-- The off-diagonal matrix is shared by all items: (item, i, j) reads it at (i, j). -/
private theorem idx_eye (b : Fin 32) (i j : Fin 512) :
    idx_main_v41 (idx_main_v42 (ix3 b i j)) = ix2 i j :=
  funext fun a => Fin.ext (by match a with | ⟨0, _⟩ => rfl | ⟨1, _⟩ => rfl)

/-- The first charge operand at (item, i, j) is the charge of atom j. -/
private theorem idx_charge_j (b : Fin 32) (i j : Fin 512) :
    idx_main_v64 (idx_main_v65 (idx_main_v66 (ix3 b i j))) = ix3 b j 0 :=
  funext fun a => Fin.ext (by
    have hb := b.isLt
    have hj := j.isLt
    match a with
    | ⟨0, _⟩ => show (b.val * 512 + j.val) / 512 = b.val; omega
    | ⟨1, _⟩ => show (b.val * 512 + j.val) / 1 % 512 = j.val; omega
    | ⟨2, _⟩ => rfl)

/-- The second charge operand at (item, i, j) is the charge of atom i. -/
private theorem idx_charge_i (b : Fin 32) (i j : Fin 512) :
    idx_main_v68 (ix3 b i j) = ix3 b i 0 :=
  funext fun a => Fin.ext (by match a with | ⟨0, _⟩ => rfl | ⟨1, _⟩ => rfl | ⟨2, _⟩ => rfl)

/-! ## The groups of the pair term -/

/-- The squared distance: the sum over the three coordinates of the squared difference. -/
private theorem d2_eq (x1 : (⟨S32x512x3, .f32⟩ : BufTy).Contents (Elt Ideal)) (b : Fin 32) (i j : Fin 512) :
    val_main_v20 (F := Ideal) x1 (ix3 b i j) = d2Diff (cur3 x1 b) i j := by
  rw [val_main_v20_apply, val_main_cst_1_apply, Ideal.ofBits_def, Ideal.ofBits_zero_f32, zero_add]
  unfold d2Diff
  refine Finset.sum_congr rfl fun k _ => ?_
  rw [val_main_v19_apply, val_main_v18_apply, val_main_v16_apply, val_main_v14_apply, val_main_v17_apply,
    val_main_v15_apply, idx_pos_j, idx_pos_i]
  rfl

/-- The distance: the guarded square root of the squared distance, zero where that is not positive. -/
private theorem dist_eq (x1 : (⟨S32x512x3, .f32⟩ : BufTy).Contents (Elt Ideal)) (b : Fin 32) (i j : Fin 512) :
    val_main_v27 (F := Ideal) x1 (ix3 b i j) = dist (d2Diff (cur3 x1 b) i j) := by
  rw [val_main_v27_apply, val_main_v22_apply, val_main_v26_apply, val_main_v25_apply, val_main_v24_apply,
    val_main_v21_apply, val_main_v23_apply, val_main_cst_2_apply, val_main_cst_3_apply,
    val_main_call1_v1_apply, val_main_call1_v0_apply, val_main_cst_4_apply,
    val_main_call2_v1_apply, val_main_call2_v0_apply, val_main_cst_5_apply, d2_eq]
  simp only [Ideal.cmpf_def, Ideal.ofBits_def, Ideal.ofBits_zero_f32, Ideal.hostUnary_sqrt_def]
  rfl

/-- The identity matrix: the two positions compared as 32-bit words. -/
private theorem eye_eq (i j : Fin 512) : val_main_v33 (F := Ideal) (ix2 i j) = eye i j := by
  rw [val_main_v33_apply, val_main_v32_apply, val_main_v31_apply, val_main_v28_apply, val_main_v29_apply,
    val_main_v30_apply, val_main_c_apply]
  unfold eye bitR IntOp.addi
  rw [BitVec.add_zero]
  rfl

/-- The pair mask: 1 where mask j · mask i · (1 - [i = j]) is not zero. -/
private theorem keep_eq (x2 : (⟨S32x512, .f32⟩ : BufTy).Contents (Elt Ideal)) (b : Fin 32) (i j : Fin 512) :
    val_main_v46 (F := Ideal) x2 (ix3 b i j) = keep (cur2 x2 b) i j := by
  rw [val_main_v46_apply, val_main_v45_apply, val_main_v43_apply, val_main_v38_apply, val_main_v36_apply,
    val_main_v34_apply, val_main_v37_apply, val_main_v35_apply, val_main_v42_apply, val_main_v41_apply,
    val_main_v40_apply, val_main_v39_apply, val_main_cst_6_apply, val_main_v44_apply, val_main_cst_7_apply,
    idx_mask_j, idx_mask_i, idx_eye, eye_eq]
  simp only [Ideal.cmpf_def, Ideal.ofBits_def, Ideal.ofBits_zero_f32, Ideal.mulf_def, Ideal.subf_def]
  rfl

/-- The reference's pair term at (item, i, j), over its own charges read at (item, atom, 0). -/
theorem pair_eq (x0 : (⟨S32x512x1024, .f32⟩ : BufTy).Contents (Elt Ideal)) (x1 : (⟨S32x512x3, .f32⟩ : BufTy).Contents (Elt Ideal)) (x2 : (⟨S32x512, .f32⟩ : BufTy).Contents (Elt Ideal)) (x7 : (⟨S1024x512, .f32⟩ : BufTy).Contents (Elt Ideal)) (x8 : (⟨S512, .f32⟩ : BufTy).Contents (Elt Ideal)) (x9 : (⟨S512x1, .f32⟩ : BufTy).Contents (Elt Ideal)) (x10 : (⟨S1, .f32⟩ : BufTy).Contents (Elt Ideal))
    (b : Fin 32) (i j : Fin 512) :
    val_main_v70 (F := Ideal) x0 x1 x2 x7 x8 x9 x10 (ix3 b i j)
      = pair (d2Diff (cur3 x1 b)) (cur2 x2 b) (fun n => val_main_v58 (F := Ideal) x0 x7 x8 x9 x10 (ix3 b n 0)) i j := by
  rw [val_main_v70_apply, val_main_v69_apply, val_main_v67_apply, val_main_v66_apply, val_main_v65_apply,
    val_main_v64_apply, val_main_v68_apply, val_main_v63_apply, val_main_v62_apply, val_main_cst_10_apply,
    val_main_v61_apply, val_main_v60_apply, val_main_v59_apply, val_main_cst_9_apply, val_main_v47_apply,
    idx_charge_j, idx_charge_i, dist_eq, keep_eq]
  simp only [Ideal.ofBits_def, Ideal.mulf_def, Ideal.addf_def, Ideal.hostDivf_def]
  rfl

end Cert.ReferenceIdeal.RefPair

end
-- ==== Proof.RefValue.lean ====
import proofs.«178759_j2774548873945_1_alg».proof.Proof.RefAtom
import proofs.«178759_j2774548873945_1_alg».proof.Proof.RefPair

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Cert.Spec

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two pair axes of (item, i, j) leaves the item: the dropped index is the item `p` exactly when the
    item is `p`. -/
private theorem drop_ix3_eq_iff (c p : Fin 32) (a b : Fin 512) :
    reducesTo_S32x512x512_S32_d1_2.drop (ix3 c a b) = ix1 p ↔ c = p := by
  have h0 := Shape.ReducesTo.drop_apply_val_of_eq reducesTo_S32x512x512_S32_d1_2 (ix3 c a b) 0 0
  constructor
  · intro h
    rw [h] at h0
    exact Fin.ext h0.symm
  · intro h
    funext d
    match d with
    | ⟨0, _⟩ => exact Fin.ext (h0.trans (congrArg Fin.val h))

/-- The indices of (item, i, j) that reduce to the item `p` are its 512 × 512 pairs. -/
private theorem sum_filter_drop (y : S32x512x512.Idx → EReal) (p : Fin 32) :
    ∑ i ∈ Finset.univ.filter (fun i => reducesTo_S32x512x512_S32_d1_2.drop i = ix1 p), y i
      = ∑ a : Fin 512, ∑ b : Fin 512, y (ix3 p a b) := by
  rw [Finset.sum_filter, sum_idx3 (n0 := 32) (n1 := 512) (n2 := 512), Finset.sum_eq_single p]
  · refine Finset.sum_congr rfl fun a _ => Finset.sum_congr rfl fun b _ => ?_
    rw [if_pos ((drop_ix3_eq_iff p p a b).2 rfl)]
  · intro c _ hc
    refine Finset.sum_eq_zero fun a _ => Finset.sum_eq_zero fun b _ => ?_
    rw [if_neg (fun h => hc ((drop_ix3_eq_iff c p a b).1 h))]
  · intro h
    exact absurd (Finset.mem_univ _) h

/-- The reference's sum over both pair axes, at an item. -/
theorem coulomb_eq (x0 : (⟨S32x512x1024, .f32⟩ : BufTy).Contents (Elt Ideal)) (x1 : (⟨S32x512x3, .f32⟩ : BufTy).Contents (Elt Ideal)) (x2 : (⟨S32x512, .f32⟩ : BufTy).Contents (Elt Ideal)) (x7 : (⟨S1024x512, .f32⟩ : BufTy).Contents (Elt Ideal)) (x8 : (⟨S512, .f32⟩ : BufTy).Contents (Elt Ideal)) (x9 : (⟨S512x1, .f32⟩ : BufTy).Contents (Elt Ideal)) (x10 : (⟨S1, .f32⟩ : BufTy).Contents (Elt Ideal))
    (j : S32.Idx) :
    val_main_v71 (F := Ideal) x0 x1 x2 x7 x8 x9 x10 j
      = coulomb (d2Diff (cur3 x1 (j 0))) (cur2 x2 (j 0)) (atom (cur3 x0 (j 0)) (cur2 x7) (cur1 x8) (col x9) (one1 x10)) := by
  obtain ⟨p, rfl⟩ : ∃ p : Fin 32, j = ix1 p := ⟨j 0, eq_ix1 j⟩
  show val_main_v71 (F := Ideal) x0 x1 x2 x7 x8 x9 x10 (ix1 p)
      = coulomb (d2Diff (cur3 x1 p)) (cur2 x2 p) (atom (cur3 x0 p) (cur2 x7) (cur1 x8) (col x9) (one1 x10))
  unfold val_main_v71
  simp only [Host.reduceAdd, Ideal.hostReduceAdd_def]
  unfold Ideal.hostReduceAdd
  rw [sum_filter_drop, val_main_cst_11_apply]
  show Ideal.ofBits .f32 0x00000000#32 + _ = _
  rw [Ideal.ofBits_zero_f32, zero_add]
  unfold coulomb
  refine Finset.sum_congr rfl fun a _ => Finset.sum_congr rfl fun b _ => ?_
  rw [RefPair.pair_eq,
    show (fun n => val_main_v58 (F := Ideal) x0 x7 x8 x9 x10 (ix3 p n 0))
        = atom (cur3 x0 p) (cur2 x7) (cur1 x8) (col x9) (one1 x10) from
      funext fun n => RefAtom.charge_atom x0 x7 x8 x9 x10 p n]

/-- The reference's result is the specification's, with the squared distance as a sum of squared differences. -/
theorem result_eq (m : (ℓ : Loc nD τ sig) → Buf (Elt Ideal) ℓ) (c : Dev nD) :
    Cert.ReferenceIdeal.Value.res_main_v73 (F := Ideal) m c
      = result d2Diff (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  refine (Read.val_main_v73_eq m c).trans ?_
  funext i
  rw [val_main_v73_apply, Ideal.addf_def, RefAtom.pooled_eq, val_main_v72_apply, coulomb_eq]
  rfl

end Cert.ReferenceIdeal.RefValue

end
-- ==== Proof.Algebra.lean ====
import proofs.«178759_j2774548873945_1_alg».proof.Proof.Spec

noncomputable section

namespace Cert.Spec

open Idealize.ShloMosaic Idealize.ShloMosaic.ValueIdx

/-- The word 2.0 denotes the real number 2. -/
theorem twow_eq : twow = ((2 : ℝ) : EReal) := by
  simp [twow, Ideal.ofBits, Ideal.ieee, -EReal.coe_mul]; norm_num

/-- On real coordinates the Gram form of the squared distance is the sum of squared differences:
    |a|² + |b|² - 2 a·b = ∑ₖ (bₖ - aₖ)², an identity of real numbers. -/
theorem d2Gram_eq_d2Diff (R : Fin 512 → Fin 3 → EReal) (hR : ∀ n k, ∃ r : ℝ, R n k = (r : EReal)) : d2Gram R = d2Diff R := by
  choose r hr using hR
  funext i j
  unfold d2Gram d2Diff
  rw [Fin.sum_univ_three, twow_eq]
  simp only [hr]
  simp only [← EReal.coe_mul, ← EReal.coe_add, ← EReal.coe_sub]
  congr 1
  ring

/-- So the two readings of the result agree where the positions are real. -/
theorem result_gram_eq_diff
    (rep : (⟨3, ![32, 512, 1024]⟩ : Shape).Idx → EReal) (R : (⟨3, ![32, 512, 3]⟩ : Shape).Idx → EReal)
    (mask : (⟨2, ![32, 512]⟩ : Shape).Idx → EReal)
    (W1 : (⟨2, ![1024, 512]⟩ : Shape).Idx → EReal) (b1 : (⟨1, ![512]⟩ : Shape).Idx → EReal)
    (W2 : (⟨2, ![512, 1]⟩ : Shape).Idx → EReal) (b2 : (⟨1, ![1]⟩ : Shape).Idx → EReal)
    (Wc1 : (⟨2, ![1024, 512]⟩ : Shape).Idx → EReal) (bc1 : (⟨1, ![512]⟩ : Shape).Idx → EReal)
    (Wc2 : (⟨2, ![512, 1]⟩ : Shape).Idx → EReal) (bc2 : (⟨1, ![1]⟩ : Shape).Idx → EReal)
    (hR : ∀ i, ∃ r : ℝ, R i = (r : EReal)) :
    result d2Gram rep R mask W1 b1 W2 b2 Wc1 bc1 Wc2 bc2 = result d2Diff rep R mask W1 b1 W2 b2 Wc1 bc1 Wc2 bc2 := by
  funext i
  unfold result
  rw [d2Gram_eq_d2Diff (cur3 R (i 0)) (fun n k => hR _)]

end Cert.Spec

end
-- ==== Proof.Finite.lean ====
import proofs.«178759_j2774548873945_1_alg».proof.Defs
import proofs.«178759_j2774548873945_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.TcCoe Idealize.SL.Sem

/-- A conjunction of two truth values that is 1 has its left part 1. -/
private theorem andi_left {s : Shape} (A B : IVec s 1) (j : s.Idx) (e : andi A B j = 1#1) : A j = 1#1 :=
  (IntOp.andi_eq_one.1 e).1

/-- A conjunction of two truth values that is 1 has its right part 1. -/
private theorem andi_right {s : Shape} (A B : IVec s 1) (j : s.Idx) (e : andi A B j = 1#1) : B j = 1#1 :=
  (IntOp.andi_eq_one.1 e).2

/-- An extended real whose absolute value is below +∞ is a real number. -/
private theorem real_of_abs_lt_top (x : EReal) (hlt : max x (-x) < ⊤) : ∃ r : ℝ, x = (r : EReal) := by
  induction x using EReal.rec with
  | bot => simp at hlt
  | coe r => exact ⟨r, rfl⟩
  | top => simp at hlt

/-- A strict comparison that yields the bit 1 holds. -/
private theorem lt_of_cmp_olt (a b : EReal) (hx : Ideal.cmp .olt a b = 1#1) : a < b := by
  by_contra hn
  have h0 : Ideal.cmp .olt a b = 0#1 := by
    show BitVec.ofBool (decide (a < b)) = 0#1
    rw [decide_eq_false hn]
    rfl
  rw [h0] at hx
  exact absurd hx (by decide)

/-- The word 0x7F800000 is +∞, so "|x| < that word" says that `x` is a real number. -/
private theorem real_of_cmp (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  exact real_of_abs_lt_top x (lt_of_cmp_olt _ _ hx)

/-- Under the precondition every coordinate of the positions array is a real number. -/
theorem positions_real [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S32x512x3.Idx) :
    ∃ r : ℝ, m ((c.tc : Thread Cert.KernelIdeal.nD Cert.KernelIdeal.τ).loc Cert.KernelIdeal.main_arg1) i = (r : EReal) := by
  haveI : Subsingleton Cert.Pre_finite_inputs.S_.Idx := ⟨fun a b => funext fun d => d.elim0⟩
  have e := congrFun (h c) ValueIdx.ix0
  unfold Cert.Pre_finite_inputs.fn Cert.Pre_finite_inputs.fn_part1 Cert.Pre_finite_inputs.fn_part2 Cert.Pre_finite_inputs.fn_part3 at e
  dsimp only at e
  generalize m ((c.tc : Thread Cert.KernelIdeal.nD Cert.KernelIdeal.τ).loc Cert.KernelIdeal.main_arg1) = X1 at e ⊢
  -- the precondition is a conjunction of eleven "all finite" facts, nested to the left; the positions' is the second
  have e1 := andi_right _ _ _ (andi_left _ _ _ (andi_left _ _ _ (andi_left _ _ _ (andi_left _ _ _ (andi_left _ _ _
    (andi_left _ _ _ (andi_left _ _ _ (andi_left _ _ _ (andi_left _ _ _ e)))))))))
  exact real_of_cmp (X1 i) (Host.reduce_andi_all _ _ _ _ _ e1 i)

end Cert.Finite

end
-- ==== Proof.lean ====
/- The proof of `Cert.Claim`: the kernel program (two pipelined regions between host operations) and the plain
   reference compute, per batch item, the masked sum of an atomwise two-layer network's outputs plus the pairwise
   Coulomb energy of the charges a second such network gives.
   * The three frames: the two kernel programs' by their generated frame certificates, the reference's by its
     generated run with the result dropped.
   * `preserves`: the idealization rewrote nothing.
   * `algebraic`: the idealized kernel's run with its result named (Proof/KernelRun.lean) ends at the specification's
     result (Proof/Spec.lean) with the squared pair distance in its Gram form |Rᵢ|² + |Rⱼ|² - 2 Rᵢ·Rⱼ
     (Proof/KernelValue.lean over the two regions' arrays, Proof/MlpArray.lean, Proof/CoulombArray.lean, and the
     bodies' stored values, Proof/MlpBody.lean, Proof/CoulombBody.lean); the reference's run ends at the same
     specification with the distance as ∑ₖ (Rⱼₖ - Rᵢₖ)² (Proof/RefValue.lean over Proof/RefAtom.lean,
     Proof/RefPair.lean); the two forms agree on real coordinates (Proof/Algebra.lean), and the precondition makes
     the positions real (Proof/Finite.lean). Every other step pairs the same operation with the same operands on
     both sides, up to the order of factors and of summation. -/
import proofs.«178759_j2774548873945_1_alg».proof.Defs
import proofs.«178759_j2774548873945_1_alg».proof.Proof.Gen.Kernel
import proofs.«178759_j2774548873945_1_alg».proof.Proof.Gen.Kernel.Skeleton
import proofs.«178759_j2774548873945_1_alg».proof.Proof.Gen.Kernel.Launch
import proofs.«178759_j2774548873945_1_alg».proof.Proof.Gen.Kernel.Points
import proofs.«178759_j2774548873945_1_alg».proof.Proof.Gen.Kernel.Frame
import proofs.«178759_j2774548873945_1_alg».proof.Proof.Gen.KernelIdeal
import proofs.«178759_j2774548873945_1_alg».proof.Proof.Gen.KernelIdeal.Skeleton
import proofs.«178759_j2774548873945_1_alg».proof.Proof.Gen.KernelIdeal.Launch
import proofs.«178759_j2774548873945_1_alg».proof.Proof.Gen.KernelIdeal.Points
import proofs.«178759_j2774548873945_1_alg».proof.Proof.Gen.KernelIdeal.Frame
import proofs.«178759_j2774548873945_1_alg».proof.Proof.Gen.ReferenceIdeal
import proofs.«178759_j2774548873945_1_alg».proof.Proof.Gen.Pre_finite_inputs
import proofs.«178759_j2774548873945_1_alg».proof.Proof.Gen.ReferenceIdeal.Run
import proofs.«178759_j2774548873945_1_alg».proof.Proof.Gen.ReferenceIdeal.Read
import proofs.«178759_j2774548873945_1_alg».proof.Proof.KernelRun
import proofs.«178759_j2774548873945_1_alg».proof.Proof.KernelValue
import proofs.«178759_j2774548873945_1_alg».proof.Proof.RefValue
import proofs.«178759_j2774548873945_1_alg».proof.Proof.Algebra
import proofs.«178759_j2774548873945_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the specification's result of the (agreeing) arguments, the reference's
    form of the squared distance: the kernel's Gram form is that on positions the precondition makes real. -/
theorem algebraic : Cert.algebraic_KernelIdeal_ReferenceIdeal := by
  intro m ρ m' ρ' hpre hagree
  refine ⟨fun c => Cert.Spec.result Cert.Spec.d2Diff (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.KernelRun.run_value (F := Ideal) m ρ)
    rw [Cert.KernelIdeal.KernelValue.result_eq]
    exact Cert.Spec.result_gram_eq_diff _ _ _ _ _ _ _ _ _ _ _ (fun i => Cert.Finite.positions_real m hpre c i)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq]
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
